-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 9
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S400x128, .f32⟩
  | .local _ .vmem, ⟨10, _⟩ => ⟨S400x128, .f32⟩
  | .local _ .vmem, ⟨11, _⟩ => ⟨S10000x128, .f32⟩
  | .local _ .vmem, ⟨12, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_12 : BitVec 32 := 0#32
  let v16 : BitVec 1 := Scalar.cmpi .eq arg0 c0_i32_12
  let v17 : BitVec 32 := Scalar.extui v16
  let c0_i32_13 : BitVec 32 := 0#32
  let v18 : BitVec 1 := Scalar.cmpi .ne v17 c0_i32_13
  v18

def k0_off1 (i : grid0.Coords) : Fin 2 → Nat :=
  let arg1 : BitVec 32 := BitVec.ofNat 32 (i 1).val
  let c400_i32 : BitVec 32 := 400#32
  let v24 : BitVec 32 := Scalar.muli arg1 c400_i32
  let v25 : Index := Scalar.indexCast v24
  let c0_17 : Index := 0#32
  ![v25.toNat, 0]
def k0_off2 (i : grid0.Coords) : Fin 2 → Nat :=
  let arg1 : BitVec 32 := BitVec.ofNat 32 (i 1).val
  let c400_i32_19 : BitVec 32 := 400#32
  let v31 : BitVec 32 := Scalar.muli arg1 c400_i32_19
  let c200_i32 : BitVec 32 := 200#32
  let v32 : BitVec 32 := Scalar.addi v31 c200_i32
  let v33 : Index := Scalar.indexCast v32
  let c0_20 : Index := 0#32
  ![v33.toNat, 0]
def k0_cond4 (i : grid0.Coords) : BitVec 1 :=
  let arg0 : BitVec 32 := BitVec.ofNat 32 (i 0).val
  let c1_i32_14 : BitVec 32 := 1#32
  let v19 : BitVec 1 := Scalar.cmpi .eq arg0 c1_i32_14
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S200x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S200x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  h_S200x128 : 0 < S200x128.numel
  shapeCasts_S200x128_S200x128 : S200x128.ShapeCasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ (k0_h3 : k0_cond3 i = 1#1), ∀ a, (k0_off1 i) a + S200x128.size a ≤ S10000x128.size a
  k0_off2_inb : ∀ i : grid0.Coords, ∀ (k0_h3 : k0_cond3 i = 1#1), ∀ a, (k0_off2 i) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .f32 = 32 ∨ (Rect.block (s := S10000x10000) S200x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .f32 = 32 ∨ (Rect.block (s := S10000x10000) S200x10000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S200x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S200x10000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Cases.lean ====
/-
  The grid of the two-layer graph convolution is 2 × 25 points, phase p = t / 25 and row block i = t % 25.
  The body branches four times on the point: "p = 0 and i = 0" (the first layer's features are computed),
  "p = 1 and i = 0" (the second layer's), "p = 0" (the aggregate's rectified rows are kept) and "p = 1"
  (the aggregate's rows are the result's block). This module states the four conditions as the body computes
  them and decides them over the grid in closed form.
-/
import proofs.«129092_g28501402976259_cont_9to1_647_12_alg».proof.Proof.Gen.Kernel.Launch
import proofs.«129092_g28501402976259_cont_9to1_647_12_alg».proof.Proof.Gen.Kernel.Skeleton
import proofs.«129092_g28501402976259_cont_9to1_647_12_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- "first phase, first row block": the test guarding the first layer's feature transform. -/
abbrev condA (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- "second phase, first row block": the test guarding the second layer's feature transform. -/
abbrev condC (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
/-- "first phase". -/
abbrev cond3 (i : grid0.Coords) : Prop := k0_cond3 i = 1#1
/-- "second phase". -/
abbrev cond4 (i : grid0.Coords) : Prop := k0_cond4 i = 1#1

theorem hcondA : ∀ t : Fin cfg0.N, condA (grid0.coords t) ↔ t.val = 0 :=
  (by decide +kernel : ∀ t : Fin grid0.N, condA (grid0.coords t) ↔ t.val = 0)
theorem hcondC : ∀ t : Fin cfg0.N, condC (grid0.coords t) ↔ t.val = 25 :=
  (by decide +kernel : ∀ t : Fin grid0.N, condC (grid0.coords t) ↔ t.val = 25)
theorem hcond3 : ∀ t : Fin cfg0.N, cond3 (grid0.coords t) ↔ t.val < 25 :=
  (by decide +kernel : ∀ t : Fin grid0.N, cond3 (grid0.coords t) ↔ t.val < 25)
theorem hcond4 : ∀ t : Fin cfg0.N, cond4 (grid0.coords t) ↔ 25 ≤ t.val :=
  (by decide +kernel : ∀ t : Fin grid0.N, cond4 (grid0.coords t) ↔ 25 ≤ t.val)

/-- The row block of a point: its second grid coordinate. -/
theorem coords_1 : ∀ t : Fin cfg0.N, ((grid0.coords t) 1).val = t.val % 25 :=
  (by decide +kernel : ∀ t : Fin grid0.N, ((grid0.coords t) 1).val = t.val % 25)

/-- The result window is idle exactly in the first phase, and is written back at every point of the second. -/
theorem idle7 : ∀ t : Fin cfg0.N, cfg0.idle 7 (grid0.coords t) = decide (t.val < 25) :=
  (by decide +kernel : ∀ t : Fin grid0.N, idle0 7 (grid0.coords t) = decide (t.val < 25))
theorem flush7 : ∀ t : Fin cfg0.N, (cfg0.win 7).flush t = decide (25 ≤ t.val) :=
  (by decide +kernel : ∀ t : Fin grid0.N, win0_7.flush t = decide (25 ≤ t.val))

end Cert.Kernel.Hand

end
-- ==== Proof.K.RunA.lean ====
/-
  The body at the first point: the first layer's features x·W1 + b1 are computed and stored whole into the feature
  scratch; then, as at every point of the first phase, the two halves of the adjacency's row block are multiplied with
  the features just stored and the rectified products go into the aggregate's first two slabs of 200 rows.
-/
import proofs.«129092_g28501402976259_cont_9to1_647_12_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The pieces the body leaves in the feature scratch and in the aggregate (last first), with the run. -/
noncomputable def runA (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : condA i) (hC : ¬condC i) (h3 : cond3 i) (h4 : ¬cond4 i)
    (x0 : Vec F S10000x128 .f32) (w1 : Vec F S128x128 .f32) (b1 : Vec F S1x128 .f32)
    (a0 a1 : Vec F S200x10000 .f32) (xh : Vec F S10000x128 .f32) :
    Σ' (LS0 : List (View.Piece (Elt F) S10000x128 .f32)), { LS1 : List (View.Piece (Elt F) S10000x128 .f32) //
      ∀ (xg : Vec F S10000x128 .f32) (E : Set ℕ) (K : PUnit → sProp 𝕄),
        iprop(owns (c : Thread nD τ) arg2 fullShare x0 ∗ owns (c : Thread nD τ) arg3 fullShare w1 ∗ owns (c : Thread nD τ) arg4 fullShare b1 ∗ owns (c : Thread nD τ) arg7 fullShare a0 ∗ owns (c : Thread nD τ) arg8 fullShare a1 ∗ owns (c : Thread nD τ) arg10 fullShare xh ∗ owns (c : Thread nD τ) arg11 fullShare xg
            ∗ (iprop(owns (c : Thread nD τ) arg2 fullShare x0 ∗ owns (c : Thread nD τ) arg3 fullShare w1 ∗ owns (c : Thread nD τ) arg4 fullShare b1 ∗ owns (c : Thread nD τ) arg7 fullShare a0 ∗ owns (c : Thread nD τ) arg8 fullShare a1
                ∗ (arg10.view.loc (c : Thread nD τ) ↦[arg10.view.set]{fullShare} arg10.view.writes (Elt F) (harg10.unread xh) LS0)
                ∗ (arg11.view.loc (c : Thread nD τ) ↦[arg11.view.set]{fullShare} arg11.view.writes (Elt F) (harg11.unread xg) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun xg E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f7, %hf7, H7⟩, ⟨%f8, %hf8, H8⟩, ⟨%f10, %hf10, H10⟩, ⟨%f11, %hf11, H11⟩, Hk⟩
    obtain rfl := harg2.eq_unread hf2; obtain rfl := harg3.eq_unread hf3; obtain rfl := harg4.eq_unread hf4
    obtain rfl := harg7.eq_unread hf7; obtain rfl := harg8.eq_unread hf8
    obtain rfl := harg10.eq_unread hf10; obtain rfl := harg11.eq_unread hf11
    sl_exec (disch := first | exact hA | exact hC | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; exact harg7.read_unread _
      iexact H7
    isplitl [H8]
    · iexists _; isplitr; · ipureintro; exact harg8.read_unread _
      iexact H8
    isplitl [H10]; · iexact H10
    iexact H11

end Cert.Kernel.Hand

end
-- ==== Proof.K.RunB.lean ====
/-
  The body at a point of the first phase past its first row block: the two halves of the adjacency's row block are
  multiplied with the resident features, and the rectified products are stored into the aggregate's two slabs of
  200 rows at the block's offset; nothing else is written.
-/
import proofs.«129092_g28501402976259_cont_9to1_647_12_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The pieces the body leaves in the aggregate (last first), with the run: holding the two adjacency halves at
    `a0`, `a1`, the features at `xh` and the aggregate at `xg`, the body ends holding the first three as they were
    and the aggregate with the pieces written over `xg`. -/
noncomputable def runB (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : ¬condC i) (h3 : cond3 i) (h4 : ¬cond4 i)
    (a0 a1 : Vec F S200x10000 .f32) (xh : Vec F S10000x128 .f32) :
    { LS1 : List (View.Piece (Elt F) S10000x128 .f32) //
      ∀ (xg : Vec F S10000x128 .f32) (E : Set ℕ) (K : PUnit → sProp 𝕄),
        iprop(owns (c : Thread nD τ) arg7 fullShare a0 ∗ owns (c : Thread nD τ) arg8 fullShare a1 ∗ owns (c : Thread nD τ) arg10 fullShare xh ∗ owns (c : Thread nD τ) arg11 fullShare xg
            ∗ (iprop(owns (c : Thread nD τ) arg7 fullShare a0 ∗ owns (c : Thread nD τ) arg8 fullShare a1 ∗ owns (c : Thread nD τ) arg10 fullShare xh
                ∗ (arg11.view.loc (c : Thread nD τ) ↦[arg11.view.set]{fullShare} arg11.view.writes (Elt F) (harg11.unread xg) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun xg E K => ?run⟩
  case run =>
    simp only [cc0__gcn_kernel_eq_skeleton]; unfold cc0__gcn_kernel_skel
    unfold owns
    iintro ⟨⟨%f7, %hf7, H7⟩, ⟨%f8, %hf8, H8⟩, ⟨%f10, %hf10, H10⟩, ⟨%f11, %hf11, H11⟩, Hk⟩
    obtain rfl := harg7.eq_unread hf7; obtain rfl := harg8.eq_unread hf8
    obtain rfl := harg10.eq_unread hf10; obtain rfl := harg11.eq_unread hf11
    sl_exec (disch := first | exact hA | exact hC | exact h3 | exact h4)
    sl_step
    iapply Hk
    isplitl [H7]
    · iexists _; isplitr; · ipureintro; exact harg7.read_unread _
      iexact H7
    isplitl [H8]
    · iexists _; isplitr; · ipureintro; exact harg8.read_unread _
      iexact H8
    isplitl [H10]
    · iexists _; isplitr; · ipureintro; exact harg10.read_unread _
      iexact H10
    iexact H11

end Cert.Kernel.Hand

end
-- ==== Proof.K.RunC.lean ====
/-
  The body at the first point of the second phase: the second layer's features agg·W2 + b2 are computed from the
  finished aggregate and stored whole into the feature scratch; then, as at every point of the second phase, the two
  halves of the adjacency's row block are multiplied with the features just stored and the products are the two halves
  of the result's block.
-/
import proofs.«129092_g28501402976259_cont_9to1_647_12_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The pieces the body leaves in the result's staging buffer and in the feature scratch (last first), with the run. -/
noncomputable def runC (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : condC i) (h3 : ¬cond3 i) (h4 : cond4 i)
    (w2 : Vec F S128x128 .f32) (b2 : Vec F S1x128 .f32)
    (a0 a1 : Vec F S200x10000 .f32) (xo : Vec F S400x128 .f32) (xh : Vec F S10000x128 .f32) (xg : Vec F S10000x128 .f32) :
    Σ' (L7 : List (View.Piece (Elt F) S400x128 .f32)), { LS0 : List (View.Piece (Elt F) S10000x128 .f32) //
      ∀ (E : Set ℕ) (K : PUnit → sProp 𝕄),
        iprop(owns (c : Thread nD τ) arg5 fullShare w2 ∗ owns (c : Thread nD τ) arg6 fullShare b2 ∗ owns (c : Thread nD τ) arg7 fullShare a0 ∗ owns (c : Thread nD τ) arg8 fullShare a1 ∗ owns (c : Thread nD τ) arg9 fullShare xo ∗ owns (c : Thread nD τ) arg10 fullShare xh ∗ owns (c : Thread nD τ) arg11 fullShare xg
            ∗ (iprop(owns (c : Thread nD τ) arg5 fullShare w2 ∗ owns (c : Thread nD τ) arg6 fullShare b2 ∗ owns (c : Thread nD τ) arg7 fullShare a0 ∗ owns (c : Thread nD τ) arg8 fullShare a1
                ∗ (arg9.view.loc (c : Thread nD τ) ↦[arg9.view.set]{fullShare} arg9.view.writes (Elt F) (harg9.unread xo) L7)
                ∗ (arg10.view.loc (c : Thread nD τ) ↦[arg10.view.set]{fullShare} arg10.view.writes (Elt F) (harg10.unread xh) LS0)
                ∗ owns (c : Thread nD τ) arg11 fullShare xg) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gcn_kernel_eq_skeleton]; unfold cc0__gcn_kernel_skel
    unfold owns
    iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg5.eq_unread hf5; obtain rfl := harg6.eq_unread hf6
    obtain rfl := harg7.eq_unread hf7; obtain rfl := harg8.eq_unread hf8; obtain rfl := harg9.eq_unread hf9
    obtain rfl := harg10.eq_unread hf10; obtain rfl := harg11.eq_unread hf11
    sl_exec (disch := first | exact hA | exact hC | exact h3 | exact h4)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    iexists _; isplitr; · ipureintro; exact harg11.read_unread _
    iexact H11

end Cert.Kernel.Hand

end
-- ==== Proof.K.RunD.lean ====
/-
  The body at a point of the second phase past its first row block: the two halves of the adjacency's row block are
  multiplied with the resident features and the products are the two halves of the result's block; nothing else is
  written.
-/
import proofs.«129092_g28501402976259_cont_9to1_647_12_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The pieces the body leaves in the result's staging buffer (last first), with the run. -/
noncomputable def runD (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : ¬condC i) (h3 : ¬cond3 i) (h4 : cond4 i)
    (a0 a1 : Vec F S200x10000 .f32) (xo : Vec F S400x128 .f32) (xh : Vec F S10000x128 .f32) :
    { L7 : List (View.Piece (Elt F) S400x128 .f32) //
      ∀ (E : Set ℕ) (K : PUnit → sProp 𝕄),
        iprop(owns (c : Thread nD τ) arg7 fullShare a0 ∗ owns (c : Thread nD τ) arg8 fullShare a1 ∗ owns (c : Thread nD τ) arg9 fullShare xo ∗ owns (c : Thread nD τ) arg10 fullShare xh
            ∗ (iprop(owns (c : Thread nD τ) arg7 fullShare a0 ∗ owns (c : Thread nD τ) arg8 fullShare a1
                ∗ (arg9.view.loc (c : Thread nD τ) ↦[arg9.view.set]{fullShare} arg9.view.writes (Elt F) (harg9.unread xo) L7)
                ∗ owns (c : Thread nD τ) arg10 fullShare xh) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f7, %hf7, H7⟩, ⟨%f8, %hf8, H8⟩, ⟨%f9, %hf9, H9⟩, ⟨%f10, %hf10, H10⟩, Hk⟩
    obtain rfl := harg7.eq_unread hf7; obtain rfl := harg8.eq_unread hf8; obtain rfl := harg9.eq_unread hf9
    obtain rfl := harg10.eq_unread hf10
    sl_exec (disch := first | exact hA | exact hC | exact h3 | exact h4)
    sl_step
    iapply Hk
    isplitl [H7]
    · iexists _; isplitr; · ipureintro; exact harg7.read_unread _
      iexact H7
    isplitl [H8]
    · iexists _; isplitr; · ipureintro; exact harg8.read_unread _
      iexact H8
    isplitl [H9]; · iexact H9
    iexists _; isplitr; · ipureintro; exact harg10.read_unread _
    iexact H10

end Cert.Kernel.Hand

end
-- ==== Proof.K.Pieces.lean ====
/-
  What the body's stores leave, case by case, as lists of pieces (last store first) over the contents the body was
  handed: the feature scratch receives one whole-array piece, x · W + b of the layer at hand; the aggregate receives
  two slabs of 200 rows at the row block's offset, the rectified products of the adjacency's two half blocks with the
  resident features; the result's staging buffer receives the two half blocks' products as its upper and lower
  halves. Features stored and read back within one point are the stored value.
-/
import proofs.«129092_g28501402976259_cont_9to1_647_12_alg».proof.Proof.K.RunA
import proofs.«129092_g28501402976259_cont_9to1_647_12_alg».proof.Proof.K.RunB
import proofs.«129092_g28501402976259_cont_9to1_647_12_alg».proof.Proof.K.RunC
import proofs.«129092_g28501402976259_cont_9to1_647_12_alg».proof.Proof.K.RunD
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a rank-2 access, as the function the library's whole-block lemmas ask for. -/
theorem hz2 : (![0, 0] : Fin 2 → Nat) = fun _ => 0 := by funext a; fin_cases a <;> rfl

/-- The aggregate's two slabs at grid coordinates `i` of the first phase, over half blocks `a0`, `a1` and features `h`. -/
def slabs (i : grid0.Coords) (h3 : cond3 i) (a0 a1 : Vec F S200x10000 .f32) (h : Vec F S10000x128 .f32) :
    List (View.Piece (Elt F) S10000x128 .f32) :=
  [⟨Rect.unit (s := S10000x128) (k0_off2 i) S200x128.size (k0_off2_inb i h3), k0_pay6 a1 h⟩,
   ⟨Rect.unit (s := S10000x128) (k0_off1 i) S200x128.size (k0_off1_inb i h3), k0_pay5 a0 h⟩]

/-- The result block's two halves over half blocks `a0`, `a1` and features `h`. -/
def halves (a0 a1 : Vec F S200x10000 .f32) (h : Vec F S10000x128 .f32) : List (View.Piece (Elt F) S400x128 .f32) :=
  [⟨Rect.unit (s := S400x128) ![200, 0] S200x128.size inb_S400x128_S200x128_200_0, k0_pay4 a1 h⟩,
   ⟨Rect.unit (s := S400x128) ![0, 0] S200x128.size inb_S400x128_S200x128_0_0, k0_pay3 a0 h⟩]

/-- A whole feature table as one piece. -/
def wholeFeat (h : Vec F S10000x128 .f32) : List (View.Piece (Elt F) S10000x128 .f32) :=
  [⟨Rect.unit (s := S10000x128) ![0, 0] S10000x128.size inb_S10000x128_S10000x128_0_0, h⟩]

theorem runA_feat (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : condA i) (hC : ¬condC i) (h3 : cond3 i) (h4 : ¬cond4 i)
    (x0 : Vec F S10000x128 .f32) (w1 : Vec F S128x128 .f32) (b1 : Vec F S1x128 .f32)
    (a0 a1 : Vec F S200x10000 .f32) (xh : Vec F S10000x128 .f32) :
    (runA c i arg2 harg2 arg3 harg3 arg4 harg4 arg5 harg5 arg6 harg6 arg7 harg7 arg8 harg8 arg9 harg9 arg10 harg10 arg11 harg11 hA hC h3 h4 x0 w1 b1 a0 a1 xh).1 = wholeFeat (k0_pay1 x0 w1 b1) := by
  unfold runA wholeFeat; dsimp only
  sl_unfold_run_names
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runA_agg (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : condA i) (hC : ¬condC i) (h3 : cond3 i) (h4 : ¬cond4 i)
    (x0 : Vec F S10000x128 .f32) (w1 : Vec F S128x128 .f32) (b1 : Vec F S1x128 .f32)
    (a0 a1 : Vec F S200x10000 .f32) (xh : Vec F S10000x128 .f32) :
    (runA c i arg2 harg2 arg3 harg3 arg4 harg4 arg5 harg5 arg6 harg6 arg7 harg7 arg8 harg8 arg9 harg9 arg10 harg10 arg11 harg11 hA hC h3 h4 x0 w1 b1 a0 a1 xh).2.1 = slabs i h3 a0 a1 (k0_pay1 x0 w1 b1) := by
  unfold runA slabs; dsimp only
  sl_unfold_run_names
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runB_agg (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : ¬condC i) (h3 : cond3 i) (h4 : ¬cond4 i)
    (a0 a1 : Vec F S200x10000 .f32) (xh : Vec F S10000x128 .f32) :
    (runB c i arg2 harg2 arg3 harg3 arg4 harg4 arg5 harg5 arg6 harg6 arg7 harg7 arg8 harg8 arg9 harg9 arg10 harg10 arg11 harg11 hA hC h3 h4 a0 a1 xh).1 = slabs i h3 a0 a1 xh := by
  unfold runB slabs; dsimp only
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runC_out (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : condC i) (h3 : ¬cond3 i) (h4 : cond4 i)
    (w2 : Vec F S128x128 .f32) (b2 : Vec F S1x128 .f32)
    (a0 a1 : Vec F S200x10000 .f32) (xo : Vec F S400x128 .f32) (xh : Vec F S10000x128 .f32) (xg : Vec F S10000x128 .f32) :
    (runC c i arg2 harg2 arg3 harg3 arg4 harg4 arg5 harg5 arg6 harg6 arg7 harg7 arg8 harg8 arg9 harg9 arg10 harg10 arg11 harg11 hA hC h3 h4 w2 b2 a0 a1 xo xh xg).1 = halves a0 a1 (k0_pay2 xg w2 b2) := by
  unfold runC halves; dsimp only
  sl_unfold_run_names
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runC_feat (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : condC i) (h3 : ¬cond3 i) (h4 : cond4 i)
    (w2 : Vec F S128x128 .f32) (b2 : Vec F S1x128 .f32)
    (a0 a1 : Vec F S200x10000 .f32) (xo : Vec F S400x128 .f32) (xh : Vec F S10000x128 .f32) (xg : Vec F S10000x128 .f32) :
    (runC c i arg2 harg2 arg3 harg3 arg4 harg4 arg5 harg5 arg6 harg6 arg7 harg7 arg8 harg8 arg9 harg9 arg10 harg10 arg11 harg11 hA hC h3 h4 w2 b2 a0 a1 xo xh xg).2.1 = wholeFeat (k0_pay2 xg w2 b2) := by
  unfold runC wholeFeat; dsimp only
  sl_unfold_run_names
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runD_out (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : ¬condC i) (h3 : ¬cond3 i) (h4 : cond4 i)
    (a0 a1 : Vec F S200x10000 .f32) (xo : Vec F S400x128 .f32) (xh : Vec F S10000x128 .f32) :
    (runD c i arg2 harg2 arg3 harg3 arg4 harg4 arg5 harg5 arg6 harg6 arg7 harg7 arg8 harg8 arg9 harg9 arg10 harg10 arg11 harg11 hA hC h3 h4 a0 a1 xo xh).1 = halves a0 a1 xh := by
  unfold runD halves; dsimp only
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

end Cert.Kernel.Hand

end
-- ==== Proof.K.Data.lean ====
/-
  The pipeline's proof data. The region finds the arrays as the two host reshapes leave them. Between grid points
  the kernel carries two scratch arrays: the feature table — x · W1 + b1 after the first point, agg · W2 + b2 after
  the first point of the second phase — and the aggregate, which after point n of the first phase holds the
  rectified slabs of row blocks 0 … n written over whatever it held before. The slabs of all 25 row blocks tile
  the aggregate, so at the start of the second phase it is one array whatever it held at launch. The result's
  staging buffer is untouched in the first phase (its window is idle there and not written back) and in the second
  phase receives the row block's two halves at every point, each point writing its block back.
-/
import proofs.«129092_g28501402976259_cont_9to1_647_12_alg».proof.Proof.K.Pieces
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s buffer contents when the region is entered: after the two reshapes of the bias vectors. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two reshapes, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The grid's points and the windows' blocks -/

theorem N50 : cfg0.N = 50 := N_0

/-- Point `n` of the grid. -/
def pt (n : Nat) (h : n < 50) : Fin cfg0.N := ⟨n, lt_of_lt_of_eq h N50.symm⟩

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The blocks by name, at their literal types: the node features, the two weight matrices, the two bias rows, and
    the adjacency's two half row blocks at point `t`. -/
abbrev xBlk (c : Dev nD) (t : Fin cfg0.N) : Vec F S10000x128 .f32 := iblk m c 0 t
abbrev w1Blk (c : Dev nD) (t : Fin cfg0.N) : Vec F S128x128 .f32 := iblk m c 1 t
abbrev b1Blk (c : Dev nD) (t : Fin cfg0.N) : Vec F S1x128 .f32 := iblk m c 2 t
abbrev w2Blk (c : Dev nD) (t : Fin cfg0.N) : Vec F S128x128 .f32 := iblk m c 3 t
abbrev b2Blk (c : Dev nD) (t : Fin cfg0.N) : Vec F S1x128 .f32 := iblk m c 4 t
abbrev adjLo (c : Dev nD) (t : Fin cfg0.N) : Vec F S200x10000 .f32 := iblk m c 5 t
abbrev adjHi (c : Dev nD) (t : Fin cfg0.N) : Vec F S200x10000 .f32 := iblk m c 6 t

/-! ## What the kernel carries -/

/-- The two scratch arrays, as whole memrefs, and one staging buffer of the result through which its block is stated. -/
abbrev sc0 : Memref sig .tc .vmem S10000x128 .f32 := Memref.whole cc0_scratch0
abbrev sc1 : Memref sig .tc .vmem S10000x128 .f32 := Memref.whole cc0_scratch1
abbrev VO7 : View sig .tc .vmem S400x128 .f32 := (Memref.whole cc0_stg7_0 : Memref sig .tc .vmem S400x128 .f32).view

/-- The first layer's features x · W1 + b1, as the first point stores them. -/
def feat1 (c : Dev nD) : Vec F S10000x128 .f32 :=
  k0_pay1 (xBlk m c (pt 0 (by decide))) (w1Blk m c (pt 0 (by decide))) (b1Blk m c (pt 0 (by decide)))

/-- The two slabs point `t` of the first phase writes into the aggregate. -/
def aggSlabs (c : Dev nD) (t : Fin cfg0.N) (h : t.val < 25) : List (View.Piece (Elt F) S10000x128 .f32) :=
  slabs (grid0.coords t) ((hcond3 t).mpr h) (adjLo m c t) (adjHi m c t) (feat1 m c)

/-- All slabs written up to and including point `n` of the first phase, the last first. -/
def aggPieces (c : Dev nD) : (n : Nat) → n < 25 → List (View.Piece (Elt F) S10000x128 .f32)
  | 0, h => aggSlabs m c (pt 0 (by decide)) h
  | n + 1, h => aggSlabs m c (pt (n + 1) (by omega)) h ++ aggPieces c n (by omega)

/-- The finished aggregate relu (adj · feat1): all 50 slabs read back. -/
def aggFull (c : Dev nD) : Vec F S10000x128 .f32 :=
  sc1.view.read (Elt F) (sc1.view.writes (Elt F) sc1.view.junk (aggPieces m c 24 (by decide)))

/-- The second layer's features agg · W2 + b2, as the first point of the second phase stores them. -/
def feat2 (c : Dev nD) : Vec F S10000x128 .f32 :=
  k0_pay2 (aggFull m c) (w2Blk m c (pt 25 (by decide))) (b2Blk m c (pt 25 (by decide)))

/-- The result's block as a point of the second phase leaves it: the two half blocks' products read back. -/
def outBlock (c : Dev nD) (t : Fin cfg0.N) : Vec F S400x128 .f32 :=
  VO7.read (Elt F) (VO7.writes (Elt F) VO7.junk (halves (adjLo m c t) (adjHi m c t) (feat2 m c)))

/-! ## The invariant between points -/

/-- Before point `n`: at the start both scratch arrays at anything; within the first phase the features at
    `feat1` and the aggregate with the slabs so far written over some contents; from the second phase's second
    point on the features at `feat2` and the aggregate at anything. -/
def Phi (c : Dev nD) : (n : Nat) → n ≤ 50 → sProp 𝕄
  | 0, _ => iprop((∃ d, owns (c : Thread nD τ) sc0 fullShare d) ∗ (∃ d, owns (c : Thread nD τ) sc1 fullShare d))
  | n + 1, _ =>
    if h25 : n < 25 then
      iprop(owns (c : Thread nD τ) sc0 fullShare (feat1 m c)
        ∗ (∃ g, sc1.view.loc (c : Thread nD τ) ↦[sc1.view.set]{fullShare} sc1.view.writes (Elt F) g (aggPieces m c n h25)))
    else
      iprop(owns (c : Thread nD τ) sc0 fullShare (feat2 m c) ∗ (∃ d, owns (c : Thread nD τ) sc1 fullShare d))

theorem Phi_zero (c : Dev nD) (h : 0 ≤ 50) :
    Phi m c 0 h = iprop((∃ d, owns (c : Thread nD τ) sc0 fullShare d) ∗ (∃ d, owns (c : Thread nD τ) sc1 fullShare d)) := rfl

theorem Phi_first (c : Dev nD) (n : Nat) (h : n + 1 ≤ 50) (h25 : n < 25) :
    Phi m c (n + 1) h = iprop(owns (c : Thread nD τ) sc0 fullShare (feat1 m c)
      ∗ (∃ g, sc1.view.loc (c : Thread nD τ) ↦[sc1.view.set]{fullShare} sc1.view.writes (Elt F) g (aggPieces m c n h25))) :=
  dif_pos h25

theorem Phi_second (c : Dev nD) (n : Nat) (h : n + 1 ≤ 50) (h25 : ¬ n < 25) :
    Phi m c (n + 1) h = iprop(owns (c : Thread nD τ) sc0 fullShare (feat2 m c) ∗ (∃ d, owns (c : Thread nD τ) sc1 fullShare d)) :=
  dif_neg h25

/-! ## The proof data -/

/-- The proof data of the pipeline on core `c`: the arrays as the region finds them; after the body each input's
    buffer at its block and the result's at `outBlock`; the adjacency, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
  Φ t := Phi m c t.val ((Nat.le_of_lt_succ t.isLt).trans_eq N50)
  q w := match w with
    | ⟨0, _⟩ => fullShare
    | ⟨1, _⟩ => fullShare
    | ⟨2, _⟩ => fullShare
    | ⟨3, _⟩ => fullShare
    | ⟨4, _⟩ => fullShare
    | ⟨5, _⟩ => fullShare.left
    | ⟨6, _⟩ => fullShare.right
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock m c t := by dsimp only [dats]

/-! Each input window's current staging buffer holds its block at every point, fetched there or not: the window is
    never idle, its blocks tile its array, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)

end Cert.Kernel.Hand

end
-- ==== Proof.K.BodyDefs.lean ====
/-
  What the body obligation is stated over: how stored pieces read back, the invariant at a point given what is known
  of the point's position, the staging memrefs the pipeline passes the body, and the obligation's two sides with the
  windows one by one.
-/
import proofs.«129092_g28501402976259_cont_9to1_647_12_alg».proof.Proof.K.Data
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## Reading stored pieces back -/

/-- A feature table stored whole reads back as stored, whatever the buffer held. -/
theorem read_wholeFeat (M : Memref sig .tc .vmem S10000x128 .f32) (f : M.view.ty.Contents (Elt F)) (h : Vec F S10000x128 .f32) :
    M.view.read (Elt F) (M.view.writes (Elt F) f (wholeFeat h)) = h := by
  unfold wholeFeat
  rw [View.read_writes_eq_canon _ _ _ (fun y => ⟨_, List.mem_singleton_self _, View.mem_set_unit_zero hz2 inb_S10000x128_S10000x128_0_0 y⟩),
    View.canon_unit_zero hz2]

/-- The two halves tile the result's block. -/
theorem halves_cover (a0 a1 : Vec F S200x10000 .f32) (h : Vec F S10000x128 .f32) (y : S400x128.Idx) :
    ∃ p ∈ halves a0 a1 h, y ∈ p.1.set :=
  View.cover_of_tiledL (halves a0 a1 h) S200x128.size (by sl_kernel_rfl) y

/-! ## The carried values at a point whose position is known -/

theorem feat1_at (c : Dev nD) (t : Fin cfg0.N) (hz : t.val = 0) :
    k0_pay1 (xBlk m c t) (w1Blk m c t) (b1Blk m c t) = feat1 m c := by
  obtain rfl : t = pt 0 (by decide) := Fin.ext hz
  rfl

theorem feat2_at (c : Dev nD) (t : Fin cfg0.N) (hz : t.val = 25) :
    k0_pay2 (aggFull m c) (w2Blk m c t) (b2Blk m c t) = feat2 m c := by
  obtain rfl : t = pt 25 (by decide) := Fin.ext hz
  rfl

theorem aggPieces_at_zero (c : Dev nD) (t : Fin cfg0.N) (hz : t.val = 0) (h25 : t.val < 25) :
    aggPieces m c t.val h25 = aggSlabs m c t h25 := by
  obtain ⟨n, hn⟩ := t
  dsimp only at hz h25 ⊢
  subst hz
  rfl

theorem aggPieces_at_succ (c : Dev nD) (t : Fin cfg0.N) (k : Nat) (hk : t.val = k + 1) (h25 : t.val < 25) :
    aggPieces m c t.val h25 = aggSlabs m c t h25 ++ aggPieces m c k (by omega) := by
  obtain ⟨n, hn⟩ := t
  dsimp only at hk h25 ⊢
  subst hk
  rfl

/-! ## The invariant at a point -/

theorem Phi_cast (c : Dev nD) (t : Fin cfg0.N) :
    (dats m 0 c).Φ t.castSucc = Phi m c t.val (le_of_lt (lt_of_lt_of_eq t.isLt N50)) := by
  dsimp only [dats]; simp only [Fin.coe_castSucc]

theorem Phi_succ (c : Dev nD) (t : Fin cfg0.N) :
    (dats m 0 c).Φ t.succ = Phi m c (t.val + 1) (lt_of_lt_of_eq t.isLt N50) := rfl

theorem Phi_of_zero (c : Dev nD) (n : Nat) (h : n ≤ 50) (hz : n = 0) :
    Phi m c n h = iprop((∃ d, owns (c : Thread nD τ) sc0 fullShare d) ∗ (∃ d, owns (c : Thread nD τ) sc1 fullShare d)) := by
  subst hz; rfl

theorem Phi_of_first (c : Dev nD) (n : Nat) (h : n ≤ 50) (k : Nat) (hk : n = k + 1) (h25 : k < 25) :
    Phi m c n h = iprop(owns (c : Thread nD τ) sc0 fullShare (feat1 m c)
      ∗ (∃ g, sc1.view.loc (c : Thread nD τ) ↦[sc1.view.set]{fullShare} sc1.view.writes (Elt F) g (aggPieces m c k h25))) := by
  subst hk; exact dif_pos h25

theorem Phi_of_second (c : Dev nD) (n : Nat) (h : n ≤ 50) (k : Nat) (hk : n = k + 1) (h25 : ¬ k < 25) :
    Phi m c n h = iprop(owns (c : Thread nD τ) sc0 fullShare (feat2 m c) ∗ (∃ d, owns (c : Thread nD τ) sc1 fullShare d)) := by
  subst hk; exact dif_neg h25

/-! ## The staging memrefs and the obligation's two sides -/

/-- Each window's current staging memref at point `t`, as the pipeline passes it to the body, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.Kernel.Hand

end
-- ==== Proof.K.BodyFirst.lean ====
/-
  The body obligation at the first point: both scratch arrays are handed over at anything; the first layer's features
  are stored whole and read back as stored; the first two slabs go into the aggregate.
-/
import proofs.«129092_g28501402976259_cont_9to1_647_12_alg».proof.Proof.K.BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem sound_first (c : Dev nD) (t : Fin cfg0.N) (hz : t.val = 0) :
    bodyPre m c t ⊢ wp frame (wpE (defs₀ (F := F)) Variants.none c none) Set.univ (bodyAt0 t) (fun _ => bodyPost m c t) := by
  have h25 : t.val < 25 := by omega
  have hA : condA (grid0.coords t) := (hcondA t).mpr hz
  have hC : ¬condC (grid0.coords t) := fun h => by have := (hcondC t).mp h; omega
  have h3 : cond3 (grid0.coords t) := (hcond3 t).mpr h25
  have h4 : ¬cond4 (grid0.coords t) := fun h => by have := (hcond4 t).mp h; omega
  unfold bodyPre bodyPost bodyAt0
  simp only [before0, before1, before2, before3, before4, before5, before6]
  rw [show (dats m 0 c).owesAt () t.succ = (dats m 0 c).owesAt () t.castSucc from rfl]
  rw [Phi_cast, Phi_succ]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (iblk m c 3 t) from by
    unfold Dat.leavesExact; rw [show cfg0.idle 3 (cfg0.grid.coords t) = false from rfl, after3]]
  rw [show (dats m 0 c).leavesExact 4 t = owns (c : Thread nD τ) (ms4 t) fullShare (iblk m c 4 t) from by
    unfold Dat.leavesExact; rw [show cfg0.idle 4 (cfg0.grid.coords t) = false from rfl, after4]]
  rw [show (dats m 0 c).leavesExact 5 t = owns (c : Thread nD τ) (ms5 t) fullShare (iblk m c 5 t) from by
    unfold Dat.leavesExact; rw [show cfg0.idle 5 (cfg0.grid.coords t) = false from rfl, after5]]
  rw [show (dats m 0 c).leavesExact 6 t = owns (c : Thread nD τ) (ms6 t) fullShare (iblk m c 6 t) from by
    unfold Dat.leavesExact; rw [show cfg0.idle 6 (cfg0.grid.coords t) = false from rfl, after6]]
  rw [Dat.leavesExact_idle (dats m 0 c) 7 t (by rw [idle7 t]; exact decide_eq_true h25)
    (by rw [flush7 t]; exact decide_eq_false (by omega))]
  rw [Phi_of_zero m c _ _ hz, Phi_first m c t.val _ h25, aggPieces_at_zero m c t hz h25]
  unfold aggSlabs
  iintro ⟨⟨⟨%d0, HS0⟩, ⟨%d1, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) hA hC h3 h4
    (xBlk m c t) (w1Blk m c t) (b1Blk m c t) (adjLo m c t) (adjHi m c t) d0).2.2 d1 Set.univ _)
  isplitl [H0]; · iexact H0
  isplitl [H1]; · iexact H1
  isplitl [H2]; · iexact H2
  isplitl [H5]; · iexact H5
  isplitl [H6]; · iexact H6
  isplitl [HS0]; · iexact HS0
  isplitl [HS1]; · iexact HS1
  iintro ⟨H0, H1, H2, H5, H6, HS0, HS1⟩
  rw [runA_agg, runA_feat, feat1_at m c t hz]
  isplitl [HS0 HS1]
  · isplitl [HS0]
    · unfold owns; iexists _; isplitr
      swap; · iexact HS0
      ipureintro; exact read_wholeFeat _ _ _
    · iexists _; iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.Kernel.Hand

end
-- ==== Proof.K.BodyPhase1.lean ====
/-
  The body obligation at a later point of the first phase: the features are resident; two more slabs go into the
  aggregate over the slabs written so far.
-/
import proofs.«129092_g28501402976259_cont_9to1_647_12_alg».proof.Proof.K.BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem sound_phase1 (c : Dev nD) (t : Fin cfg0.N) (k : Nat) (hk : t.val = k + 1) (h25 : t.val < 25) :
    bodyPre m c t ⊢ wp frame (wpE (defs₀ (F := F)) Variants.none c none) Set.univ (bodyAt0 t) (fun _ => bodyPost m c t) := by
  have hA : ¬condA (grid0.coords t) := fun h => by have := (hcondA t).mp h; omega
  have hC : ¬condC (grid0.coords t) := fun h => by have := (hcondC t).mp h; omega
  have h3 : cond3 (grid0.coords t) := (hcond3 t).mpr h25
  have h4 : ¬cond4 (grid0.coords t) := fun h => by have := (hcond4 t).mp h; omega
  unfold bodyPre bodyPost bodyAt0
  simp only [before0, before1, before2, before3, before4, before5, before6]
  rw [show (dats m 0 c).owesAt () t.succ = (dats m 0 c).owesAt () t.castSucc from rfl]
  rw [Phi_cast, Phi_succ]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (iblk m c 3 t) from by
    unfold Dat.leavesExact; rw [show cfg0.idle 3 (cfg0.grid.coords t) = false from rfl, after3]]
  rw [show (dats m 0 c).leavesExact 4 t = owns (c : Thread nD τ) (ms4 t) fullShare (iblk m c 4 t) from by
    unfold Dat.leavesExact; rw [show cfg0.idle 4 (cfg0.grid.coords t) = false from rfl, after4]]
  rw [show (dats m 0 c).leavesExact 5 t = owns (c : Thread nD τ) (ms5 t) fullShare (iblk m c 5 t) from by
    unfold Dat.leavesExact; rw [show cfg0.idle 5 (cfg0.grid.coords t) = false from rfl, after5]]
  rw [show (dats m 0 c).leavesExact 6 t = owns (c : Thread nD τ) (ms6 t) fullShare (iblk m c 6 t) from by
    unfold Dat.leavesExact; rw [show cfg0.idle 6 (cfg0.grid.coords t) = false from rfl, after6]]
  rw [Dat.leavesExact_idle (dats m 0 c) 7 t (by rw [idle7 t]; exact decide_eq_true h25)
    (by rw [flush7 t]; exact decide_eq_false (by omega))]
  rw [Phi_of_first m c _ _ k hk (by omega), Phi_first m c t.val _ h25, aggPieces_at_succ m c t k hk h25]
  unfold aggSlabs
  iintro ⟨⟨HS0, ⟨%g, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) hA hC h3 h4
    (adjLo m c t) (adjHi m c t) (feat1 m c)).2 (sc1.view.read (Elt F) (sc1.view.writes (Elt F) g (aggPieces m c k (by omega)))) Set.univ _)
  isplitl [H5]; · iexact H5
  isplitl [H6]; · iexact H6
  isplitl [HS0]; · iexact HS0
  isplitl [HS1]; · iapply (owns_intro (c : Thread nD τ) sc1 fullShare _); iexact HS1
  iintro ⟨H5, H6, HS0, HS1⟩
  rw [runB_agg, Memref.IsWhole.unread_read, ← View.writes_append]
  isplitl [HS0 HS1]
  · isplitl [HS0]; · iexact HS0
    iexists _; iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.Kernel.Hand

end
-- ==== Proof.K.AggCover.lean ====
/-
  The 50 slabs the first phase writes — two of 200 rows for each of the 25 row blocks of 400 — tile the aggregate's
  10000 rows, so once they are all written the aggregate is one array, whatever it held at launch.
-/
import proofs.«129092_g28501402976259_cont_9to1_647_12_alg».proof.Proof.K.Data
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem agg_cover (c : Dev nD) (y : S10000x128.Idx) : ∃ p ∈ aggPieces m c 24 (by decide), y ∈ p.1.set :=
  View.cover_of_tiledL (aggPieces m c 24 (by decide)) S200x128.size (by sl_kernel_rfl) y

theorem read_agg (c : Dev nD) (g : sc1.view.ty.Contents (Elt F)) :
    sc1.view.read (Elt F) (sc1.view.writes (Elt F) g (aggPieces m c 24 (by decide))) = aggFull m c :=
  View.read_writes_of_cover _ _ _ _ _ (agg_cover m c)

end Cert.Kernel.Hand

end
-- ==== Proof.K.BodyTurn.lean ====
/-
  The body obligation at the first point of the second phase: the aggregate, all of its slabs written, is read whole;
  the second layer's features are stored whole and read back as stored; the first result block is written.
-/
import proofs.«129092_g28501402976259_cont_9to1_647_12_alg».proof.Proof.K.BodyDefs
import proofs.«129092_g28501402976259_cont_9to1_647_12_alg».proof.Proof.K.AggCover

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem sound_turn (c : Dev nD) (t : Fin cfg0.N) (hz : t.val = 25) :
    bodyPre m c t ⊢ wp frame (wpE (defs₀ (F := F)) Variants.none c none) Set.univ (bodyAt0 t) (fun _ => bodyPost m c t) := by
  have h25 : ¬ t.val < 25 := by omega
  have hA : ¬condA (grid0.coords t) := fun h => by have := (hcondA t).mp h; omega
  have hC : condC (grid0.coords t) := (hcondC t).mpr hz
  have h3 : ¬cond3 (grid0.coords t) := fun h => h25 ((hcond3 t).mp h)
  have h4 : cond4 (grid0.coords t) := (hcond4 t).mpr (by omega)
  unfold bodyPre bodyPost bodyAt0
  simp only [before0, before1, before2, before3, before4, before5, before6]
  rw [show (dats m 0 c).owesAt () t.succ = (dats m 0 c).owesAt () t.castSucc from rfl]
  rw [Phi_cast, Phi_succ]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (iblk m c 3 t) from by
    unfold Dat.leavesExact; rw [show cfg0.idle 3 (cfg0.grid.coords t) = false from rfl, after3]]
  rw [show (dats m 0 c).leavesExact 4 t = owns (c : Thread nD τ) (ms4 t) fullShare (iblk m c 4 t) from by
    unfold Dat.leavesExact; rw [show cfg0.idle 4 (cfg0.grid.coords t) = false from rfl, after4]]
  rw [show (dats m 0 c).leavesExact 5 t = owns (c : Thread nD τ) (ms5 t) fullShare (iblk m c 5 t) from by
    unfold Dat.leavesExact; rw [show cfg0.idle 5 (cfg0.grid.coords t) = false from rfl, after5]]
  rw [show (dats m 0 c).leavesExact 6 t = owns (c : Thread nD τ) (ms6 t) fullShare (iblk m c 6 t) from by
    unfold Dat.leavesExact; rw [show cfg0.idle 6 (cfg0.grid.coords t) = false from rfl, after6]]
  rw [show (dats m 0 c).leavesExact 7 t = owns (c : Thread nD τ) (ms7 t) fullShare (outBlock m c t) from by
    unfold Dat.leavesExact; rw [idle7 t, decide_eq_false h25, after7]]
  rw [Phi_of_first m c _ _ 24 hz (by decide), Phi_second m c t.val _ h25]
  unfold outBlock
  iintro ⟨⟨HS0, ⟨%g, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) hA hC h3 h4
    (w2Blk m c t) (b2Blk m c t) (adjLo m c t) (adjHi m c t) ((dats m 0 c).before 7 t e7) (feat1 m c) (aggFull m c)).2.2 Set.univ _)
  isplitl [H3]; · iexact H3
  isplitl [H4]; · iexact H4
  isplitl [H5]; · iexact H5
  isplitl [H6]; · iexact H6
  isplitl [H7]; · iexact H7
  isplitl [HS0]; · iexact HS0
  isplitl [HS1]
  · unfold owns; iexists _; isplitr
    swap; · iexact HS1
    ipureintro; exact read_agg m c g
  iintro ⟨H3, H4, H5, H6, H7, HS0, HS1⟩
  rw [runC_feat, runC_out, feat2_at m c t hz]
  isplitl [HS0 HS1]
  · isplitl [HS0]
    · unfold owns; iexists _; isplitr
      swap; · iexact HS0
      ipureintro; exact read_wholeFeat _ _ _
    · iexists _; iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (halves_cover _ _ _)

end Cert.Kernel.Hand

end
-- ==== Proof.K.BodyPhase2.lean ====
/-
  The body obligation at a later point of the second phase: the features are resident and one result block is written.
-/
import proofs.«129092_g28501402976259_cont_9to1_647_12_alg».proof.Proof.K.BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem sound_phase2 (c : Dev nD) (t : Fin cfg0.N) (k : Nat) (hk : t.val = k + 1) (h26 : 25 < t.val) :
    bodyPre m c t ⊢ wp frame (wpE (defs₀ (F := F)) Variants.none c none) Set.univ (bodyAt0 t) (fun _ => bodyPost m c t) := by
  have h25 : ¬ t.val < 25 := by omega
  have hA : ¬condA (grid0.coords t) := fun h => by have := (hcondA t).mp h; omega
  have hC : ¬condC (grid0.coords t) := fun h => by have := (hcondC t).mp h; omega
  have h3 : ¬cond3 (grid0.coords t) := fun h => h25 ((hcond3 t).mp h)
  have h4 : cond4 (grid0.coords t) := (hcond4 t).mpr (by omega)
  unfold bodyPre bodyPost bodyAt0
  simp only [before0, before1, before2, before3, before4, before5, before6]
  rw [show (dats m 0 c).owesAt () t.succ = (dats m 0 c).owesAt () t.castSucc from rfl]
  rw [Phi_cast, Phi_succ]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (iblk m c 3 t) from by
    unfold Dat.leavesExact; rw [show cfg0.idle 3 (cfg0.grid.coords t) = false from rfl, after3]]
  rw [show (dats m 0 c).leavesExact 4 t = owns (c : Thread nD τ) (ms4 t) fullShare (iblk m c 4 t) from by
    unfold Dat.leavesExact; rw [show cfg0.idle 4 (cfg0.grid.coords t) = false from rfl, after4]]
  rw [show (dats m 0 c).leavesExact 5 t = owns (c : Thread nD τ) (ms5 t) fullShare (iblk m c 5 t) from by
    unfold Dat.leavesExact; rw [show cfg0.idle 5 (cfg0.grid.coords t) = false from rfl, after5]]
  rw [show (dats m 0 c).leavesExact 6 t = owns (c : Thread nD τ) (ms6 t) fullShare (iblk m c 6 t) from by
    unfold Dat.leavesExact; rw [show cfg0.idle 6 (cfg0.grid.coords t) = false from rfl, after6]]
  rw [show (dats m 0 c).leavesExact 7 t = owns (c : Thread nD τ) (ms7 t) fullShare (outBlock m c t) from by
    unfold Dat.leavesExact; rw [idle7 t, decide_eq_false h25, after7]]
  rw [Phi_of_second m c _ _ k hk (by omega), Phi_second m c t.val _ h25]
  unfold outBlock
  iintro ⟨⟨HS0, HS1⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) hA hC h3 h4
    (adjLo m c t) (adjHi m c t) ((dats m 0 c).before 7 t e7) (feat2 m c)).2 Set.univ _)
  isplitl [H5]; · iexact H5
  isplitl [H6]; · iexact H6
  isplitl [H7]; · iexact H7
  isplitl [HS0]; · iexact HS0
  iintro ⟨H5, H6, H7, HS0⟩
  rw [runD_out]
  isplitl [HS0 HS1]
  · isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (halves_cover _ _ _)

end Cert.Kernel.Hand

end
-- ==== Proof.K.Body.lean ====
/-
  The body obligation at every grid point: the point is the first, a later one of the first phase, the first of the
  second phase, or a later one of the second; each case is its own run of the body.
-/
import proofs.«129092_g28501402976259_cont_9to1_647_12_alg».proof.Proof.K.BodyFirst
import proofs.«129092_g28501402976259_cont_9to1_647_12_alg».proof.Proof.K.BodyPhase1
import proofs.«129092_g28501402976259_cont_9to1_647_12_alg».proof.Proof.K.BodyTurn
import proofs.«129092_g28501402976259_cont_9to1_647_12_alg».proof.Proof.K.BodyPhase2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt N50
  by_cases hz : t.val = 0
  · exact sound_first m c t hz
  by_cases h25 : t.val < 25
  · exact sound_phase1 m c t (t.val - 1) (by omega) h25
  by_cases hc : t.val = 25
  · exact sound_turn m c t hc
  · exact sound_phase2 m c t (t.val - 1) (by omega) (by omega)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The run. @main is the two reshapes and then the kernel region. The launch hands the region every unscoped buffer
  at the contents the reshapes left; the adjacency's buffer, which two windows read, is dealt to them half and half;
  the two bias vectors, which no window stages, bypass the region. Every weakly fair execution terminates, the
  result array ends at what the write-backs of the second phase leave, every other array as the region found it.
-/
import proofs.«129092_g28501402976259_cont_9to1_647_12_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the eight windows' arrays, one by one: seven, the adjacency's once. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg2) ↦{fullShare} Vc main_arg2)
          ∗ (((c : Thread nD τ).loc main_v0) ↦{fullShare} Vc main_v0) ∗ (((c : Thread nD τ).loc main_arg4) ↦{fullShare} Vc main_arg4)
          ∗ (((c : Thread nD τ).loc main_v1) ↦{fullShare} Vc main_v1) ∗ (((c : Thread nD τ).loc main_arg1) ↦{fullShare} Vc main_arg1)
          ∗ (((c : Thread nD τ).loc main_v2) ↦{fullShare} Vc main_v2)) := by
  unfold Pipeline.arrBufs
  exact bigSep_eq_bigSepL_of_eq [main_arg0, main_arg2, main_v0, main_arg4, main_v1, main_arg1, main_v2] (by decide) (by decide) _

/-- The buffers behind the windows' arrays, whole at the region-entry contents, are the proof data's arrays at entry:
    six of them each one window's, the adjacency's full share split into the halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [show (dats m 0 c).share 0 = fullShare from rfl, show (dats m 0 c).share 1 = fullShare from rfl,
    show (dats m 0 c).share 2 = fullShare from rfl, show (dats m 0 c).share 3 = fullShare from rfl,
    show (dats m 0 c).share 4 = fullShare from rfl, show (dats m 0 c).share 5 = fullShare.left from rfl,
    show (dats m 0 c).share 6 = fullShare.right from rfl, show (dats m 0 c).share 7 = fullShare from rfl]
  simp only [View.set_whole]
  iintro ⟨H0, H1, H2, H3, H4, HA, H7⟩
  ihave HA' := (pointsTo_share (by rw [PosShare.left_op_right]; exact Part.mem_some _)).1 $$ HA
  icases HA' with ⟨HA5, HA6⟩
  isplitl [H0]; · iexact H0
  isplitl [H1]; · iexact H1
  isplitl [H2]; · iexact H2
  isplitl [H3]; · iexact H3
  isplitl [H4]; · iexact H4
  isplitl [HA5]; · iexact HA5
  isplitl [HA6]; · iexact HA6
  iexact H7

/-- What the launch hands the region of the scoped buffers is the invariant before the first point: the two scratch
    arrays at anything. -/
theorem hin (c : Dev nD) :
    iprop(emp ∗ Pipeline.scopedRest (Ix := Unit) (Name := ℕ) (U := UR sig nD τ) (Lvl := ℕ) (Val := Elt F) spec0 c) ⊢ (dats m 0 c).Φ 0 := by
  rw [scopedRest0_eq, show (dats m 0 c).Φ 0 = Phi m c 0 (Nat.zero_le _) from rfl, Phi_zero]
  simp only [owns_whole]
  iintro ⟨-, H⟩; iexact H

/-- After the last point the invariant gives the two scratch arrays back. -/
theorem hout (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [scopedRest0_eq]
  rw [show (dats m 0 c).Φ (Fin.last cfg0.N) = Phi m c (Fin.last cfg0.N).val ((Nat.le_of_lt_succ (Fin.last cfg0.N).isLt).trans_eq N50) from rfl]
  rw [Phi_of_second m c _ _ 49 (by rw [Fin.val_last]; exact N50) (by decide)]
  simp only [owns_whole]
  iintro ⟨H0, H1⟩
  isplitr; · iempintro
  isplitl [H0]; · iexists _; iexact H0
  iexact H1

/-- The run's post: every window's array at what the library computes from the proof data, and the buffers no
    window stages as the region found them. -/
def RunPost (r : PUnit × MemSt nD τ sig (Elt F)) : Prop :=
  ∀ c : Dev nD, (∀ w : Fin cfg0.W, r.2.mem ((spec0 w).arr.view.loc (c : Thread nD τ)) = (dats m 0 c).arrAt w cfg0.N)
    ∧ (∀ b ∈ Pipeline.restRefs sig spec0, r.2.mem ((c : Thread nD τ).loc b) = V m c b)

/-- At the compiled mesh, for any float values, from any memory with zero counters: every weakly fair execution of
    @main terminates, nothing faulting, in a state of `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun _ h => h)

end Cert.Kernel.Hand

end
-- ==== Proof.K.Blocks.lean ====
/-
  Each window's block read at one entry is the array's entry at the block's offset plus the position inside the block:
  the five resident operands' blocks are their whole arrays, the adjacency's two half row blocks at point t are rows
  400·(t mod 25) … +199 and 400·(t mod 25)+200 … +399. The two bias rows are the bias vectors reshaped, and every
  argument array reaches the region as launched.
-/
import proofs.«129092_g28501402976259_cont_9to1_647_12_alg».proof.Proof.K.Data
import Idealize.ShloMosaic.Lib.Pipeline.Value
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The arrays as the region finds them -/

theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results
theorem V_arg3 (c : Dev nD) : V m c main_arg3 = m ((c : Thread nD τ).loc main_arg3) := by
  dsimp only [V, V0, hostOps0]; after_results
theorem V_arg4 (c : Dev nD) : V m c main_arg4 = m ((c : Thread nD τ).loc main_arg4) := by
  dsimp only [V, V0, hostOps0]; after_results
theorem V_arg5 (c : Dev nD) : V m c main_arg5 = m ((c : Thread nD τ).loc main_arg5) := by
  dsimp only [V, V0, hostOps0]; after_results

/-- The launched arrays at their literal types. -/
abbrev xArr (c : Dev nD) : Vec F S10000x128 .f32 := m ((c : Thread nD τ).loc main_arg0)
abbrev adjArr (c : Dev nD) : Vec F S10000x10000 .f32 := m ((c : Thread nD τ).loc main_arg1)
abbrev w1Arr (c : Dev nD) : Vec F S128x128 .f32 := m ((c : Thread nD τ).loc main_arg2)
abbrev b1Arr (c : Dev nD) : Vec F S128 .f32 := m ((c : Thread nD τ).loc main_arg3)
abbrev w2Arr (c : Dev nD) : Vec F S128x128 .f32 := m ((c : Thread nD τ).loc main_arg4)
abbrev b2Arr (c : Dev nD) : Vec F S128 .f32 := m ((c : Thread nD τ).loc main_arg5)

/-- The two bias rows as the region finds them: the bias vectors in row-major order at shape [1,128]. -/
theorem V_v0 (c : Dev nD) :
    (V m c main_v0 : S1x128.Idx → Elt F .f32) = shapeCast S1x128 (b1Arr m c) shapeCasts_S128_S1x128 := by
  dsimp only [V, V0, hostOps0]; after_results; rfl
theorem V_v1 (c : Dev nD) :
    (V m c main_v1 : S1x128.Idx → Elt F .f32) = shapeCast S1x128 (b2Arr m c) shapeCasts_S128_S1x128 := by
  dsimp only [V, V0, hostOps0]; after_results; rfl

/-! ## The index maps over the grid -/

theorem idx0 : ∀ t : Fin cfg0.N, cc0_transform_0 (grid0.coords t) = ![0, 0] :=
  (by decide +kernel : ∀ t : Fin grid0.N, cc0_transform_0 (grid0.coords t) = ![0, 0])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![0, 0] :=
  (by decide +kernel : ∀ t : Fin grid0.N, cc0_transform_2 (grid0.coords t) = ![0, 0])
theorem idx3 : ∀ t : Fin cfg0.N, cc0_transform_3 (grid0.coords t) = ![0, 0] :=
  (by decide +kernel : ∀ t : Fin grid0.N, cc0_transform_3 (grid0.coords t) = ![0, 0])
theorem idx4 : ∀ t : Fin cfg0.N, cc0_transform_4 (grid0.coords t) = ![0, 0] :=
  (by decide +kernel : ∀ t : Fin grid0.N, cc0_transform_4 (grid0.coords t) = ![0, 0])
/-- The lower half block of row block t mod 25 is block 2·(t mod 25) of 200 rows, the upper the next. -/
theorem idx5 : ∀ t : Fin cfg0.N, cc0_transform_5 (grid0.coords t) = ![2 * (t.val % 25), 0] :=
  (by decide +kernel : ∀ t : Fin grid0.N, cc0_transform_5 (grid0.coords t) = ![2 * (t.val % 25), 0])
theorem idx6 : ∀ t : Fin cfg0.N, cc0_transform_6 (grid0.coords t) = ![2 * (t.val % 25) + 1, 0] :=
  (by decide +kernel : ∀ t : Fin grid0.N, cc0_transform_6 (grid0.coords t) = ![2 * (t.val % 25) + 1, 0])

/-! ## The blocks at an entry -/

theorem xBlk_apply (c : Dev nD) (t : Fin cfg0.N) (r : Fin 10000) (k : Fin 128) :
    xBlk m c t (ix2 r k) = xArr m c (ix2 r k) := by
  show V m c main_arg0 (((cfg0.win 0).blk t).view.emb (ix2 r k)) = _
  rw [V_arg0]
  refine congrArg (xArr m c) ?_
  funext a; apply Fin.ext
  have e := idx0 t
  match a with
  | ⟨0, _⟩ =>
    show cc0_transform_0 (grid0.coords t) (0 : Fin 2) * 10000 + 1 * r.val = r.val
    rw [e]; show 0 * 10000 + 1 * r.val = r.val; omega
  | ⟨1, _⟩ =>
    show cc0_transform_0 (grid0.coords t) (1 : Fin 2) * 128 + 1 * k.val = k.val
    rw [e]; show 0 * 128 + 1 * k.val = k.val; omega

theorem w1Blk_apply (c : Dev nD) (t : Fin cfg0.N) (a b : Fin 128) :
    w1Blk m c t (ix2 a b) = w1Arr m c (ix2 a b) := by
  show V m c main_arg2 (((cfg0.win 1).blk t).view.emb (ix2 a b)) = _
  rw [V_arg2]
  refine congrArg (w1Arr m c) ?_
  funext d; apply Fin.ext
  have e := idx1 t
  match d with
  | ⟨0, _⟩ =>
    show cc0_transform_1 (grid0.coords t) (0 : Fin 2) * 128 + 1 * a.val = a.val
    rw [e]; show 0 * 128 + 1 * a.val = a.val; omega
  | ⟨1, _⟩ =>
    show cc0_transform_1 (grid0.coords t) (1 : Fin 2) * 128 + 1 * b.val = b.val
    rw [e]; show 0 * 128 + 1 * b.val = b.val; omega

theorem w2Blk_apply (c : Dev nD) (t : Fin cfg0.N) (a b : Fin 128) :
    w2Blk m c t (ix2 a b) = w2Arr m c (ix2 a b) := by
  show V m c main_arg4 (((cfg0.win 3).blk t).view.emb (ix2 a b)) = _
  rw [V_arg4]
  refine congrArg (w2Arr m c) ?_
  funext d; apply Fin.ext
  have e := idx3 t
  match d with
  | ⟨0, _⟩ =>
    show cc0_transform_3 (grid0.coords t) (0 : Fin 2) * 128 + 1 * a.val = a.val
    rw [e]; show 0 * 128 + 1 * a.val = a.val; omega
  | ⟨1, _⟩ =>
    show cc0_transform_3 (grid0.coords t) (1 : Fin 2) * 128 + 1 * b.val = b.val
    rw [e]; show 0 * 128 + 1 * b.val = b.val; omega

/-- The bias rows: the [1,128] reshape of the bias vector, read at column k. -/
theorem b1Blk_apply (c : Dev nD) (t : Fin cfg0.N) (k : Fin 128) :
    b1Blk m c t (ix2 (0 : Fin 1) k) = b1Arr m c (ix1 k) := by
  show (V m c main_v0 : S1x128.Idx → Elt F .f32) (((cfg0.win 2).blk t).view.emb (ix2 (0 : Fin 1) k)) = _
  have hemb : ((cfg0.win 2).blk t).view.emb (ix2 (0 : Fin 1) k) = (ix2 (0 : Fin 1) k : S1x128.Idx) := by
    funext d; apply Fin.ext
    have e := idx2 t
    match d with
    | ⟨0, _⟩ =>
      show cc0_transform_2 (grid0.coords t) (0 : Fin 2) * 1 + 1 * 0 = 0
      rw [e]; rfl
    | ⟨1, _⟩ =>
      show cc0_transform_2 (grid0.coords t) (1 : Fin 2) * 128 + 1 * k.val = k.val
      rw [e]; show 0 * 128 + 1 * k.val = k.val; omega
  rw [hemb, V_v0]
  exact shapeCast_a_1a_apply (b1Arr m c) shapeCasts_S128_S1x128 (0 : Fin 1) k

theorem b2Blk_apply (c : Dev nD) (t : Fin cfg0.N) (k : Fin 128) :
    b2Blk m c t (ix2 (0 : Fin 1) k) = b2Arr m c (ix1 k) := by
  show (V m c main_v1 : S1x128.Idx → Elt F .f32) (((cfg0.win 4).blk t).view.emb (ix2 (0 : Fin 1) k)) = _
  have hemb : ((cfg0.win 4).blk t).view.emb (ix2 (0 : Fin 1) k) = (ix2 (0 : Fin 1) k : S1x128.Idx) := by
    funext d; apply Fin.ext
    have e := idx4 t
    match d with
    | ⟨0, _⟩ =>
      show cc0_transform_4 (grid0.coords t) (0 : Fin 2) * 1 + 1 * 0 = 0
      rw [e]; rfl
    | ⟨1, _⟩ =>
      show cc0_transform_4 (grid0.coords t) (1 : Fin 2) * 128 + 1 * k.val = k.val
      rw [e]; show 0 * 128 + 1 * k.val = k.val; omega
  rw [hemb, V_v1]
  exact shapeCast_a_1a_apply (b2Arr m c) shapeCasts_S128_S1x128 (0 : Fin 1) k

/-- The row of the adjacency that row r of the lower (upper) half block at point t is. -/
def rowLo (t : Fin cfg0.N) (r : Fin 200) : Fin 10000 := ⟨400 * (t.val % 25) + r.val, by have := r.isLt; omega⟩
def rowHi (t : Fin cfg0.N) (r : Fin 200) : Fin 10000 := ⟨400 * (t.val % 25) + 200 + r.val, by have := r.isLt; omega⟩

theorem adjLo_apply (c : Dev nD) (t : Fin cfg0.N) (r : Fin 200) (k : Fin 10000) :
    adjLo m c t (ix2 r k) = adjArr m c (ix2 (rowLo t r) k) := by
  show V m c main_arg1 (((cfg0.win 5).blk t).view.emb (ix2 r k)) = _
  rw [V_arg1]
  refine congrArg (adjArr m c) ?_
  funext d; apply Fin.ext
  have e := idx5 t
  match d with
  | ⟨0, _⟩ =>
    show cc0_transform_5 (grid0.coords t) (0 : Fin 2) * 200 + 1 * r.val = 400 * (t.val % 25) + r.val
    rw [e]; show 2 * (t.val % 25) * 200 + 1 * r.val = 400 * (t.val % 25) + r.val; omega
  | ⟨1, _⟩ =>
    show cc0_transform_5 (grid0.coords t) (1 : Fin 2) * 10000 + 1 * k.val = k.val
    rw [e]; show 0 * 10000 + 1 * k.val = k.val; omega

theorem adjHi_apply (c : Dev nD) (t : Fin cfg0.N) (r : Fin 200) (k : Fin 10000) :
    adjHi m c t (ix2 r k) = adjArr m c (ix2 (rowHi t r) k) := by
  show V m c main_arg1 (((cfg0.win 6).blk t).view.emb (ix2 r k)) = _
  rw [V_arg1]
  refine congrArg (adjArr m c) ?_
  funext d; apply Fin.ext
  have e := idx6 t
  match d with
  | ⟨0, _⟩ =>
    show cc0_transform_6 (grid0.coords t) (0 : Fin 2) * 200 + 1 * r.val = 400 * (t.val % 25) + 200 + r.val
    rw [e]; show (2 * (t.val % 25) + 1) * 200 + 1 * r.val = 400 * (t.val % 25) + 200 + r.val; omega
  | ⟨1, _⟩ =>
    show cc0_transform_6 (grid0.coords t) (1 : Fin 2) * 10000 + 1 * k.val = k.val
    rw [e]; show 0 * 10000 + 1 * k.val = k.val; omega

end Cert.Kernel.Hand

end
-- ==== Proof.K.Frame.lean ====
/-
  The frame: every weakly fair execution of @main terminates, nothing faulting, and the six argument arrays end as
  launched. Four of them are arrays input windows stage, which no write-back touches; the two bias vectors bypass the
  region; and the reshapes before the region write none of them.
-/
import proofs.«129092_g28501402976259_cont_9to1_647_12_alg».proof.Proof.K.Launch
import proofs.«129092_g28501402976259_cont_9to1_647_12_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six argument arrays after any state of the run's post. -/
theorem kept_args (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_arg0 m c))),
   ((h c).1 5).trans (((dats m 0 c).arrAt_in 5 rfl _).trans ((A_eq m c 5).trans (V_arg1 m c))),
   ((h c).1 1).trans (((dats m 0 c).arrAt_in 1 rfl _).trans ((A_eq m c 1).trans (V_arg2 m c))),
   ((h c).2 main_arg3 (by decide)).trans (V_arg3 m c),
   ((h c).1 3).trans (((dats m 0 c).arrAt_in 3 rfl _).trans ((A_eq m c 3).trans (V_arg4 m c))),
   ((h c).2 main_arg5 (by decide)).trans (V_arg5 m c)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_args m r h c) (run_main m ρ)

end Cert.Kernel.Hand

end
-- ==== Proof.KI.Cases.lean ====
/-
  The grid of the two-layer graph convolution is 2 × 25 points, phase p = t / 25 and row block i = t % 25.
  The body branches four times on the point: "p = 0 and i = 0" (the first layer's features are computed),
  "p = 1 and i = 0" (the second layer's), "p = 0" (the aggregate's rectified rows are kept) and "p = 1"
  (the aggregate's rows are the result's block). This module states the four conditions as the body computes
  them and decides them over the grid in closed form.
-/
import proofs.«129092_g28501402976259_cont_9to1_647_12_alg».proof.Proof.Gen.KernelIdeal.Launch
import proofs.«129092_g28501402976259_cont_9to1_647_12_alg».proof.Proof.Gen.KernelIdeal.Skeleton
import proofs.«129092_g28501402976259_cont_9to1_647_12_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- "first phase, first row block": the test guarding the first layer's feature transform. -/
abbrev condA (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- "second phase, first row block": the test guarding the second layer's feature transform. -/
abbrev condC (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
/-- "first phase". -/
abbrev cond3 (i : grid0.Coords) : Prop := k0_cond3 i = 1#1
/-- "second phase". -/
abbrev cond4 (i : grid0.Coords) : Prop := k0_cond4 i = 1#1

theorem hcondA : ∀ t : Fin cfg0.N, condA (grid0.coords t) ↔ t.val = 0 :=
  (by decide +kernel : ∀ t : Fin grid0.N, condA (grid0.coords t) ↔ t.val = 0)
theorem hcondC : ∀ t : Fin cfg0.N, condC (grid0.coords t) ↔ t.val = 25 :=
  (by decide +kernel : ∀ t : Fin grid0.N, condC (grid0.coords t) ↔ t.val = 25)
theorem hcond3 : ∀ t : Fin cfg0.N, cond3 (grid0.coords t) ↔ t.val < 25 :=
  (by decide +kernel : ∀ t : Fin grid0.N, cond3 (grid0.coords t) ↔ t.val < 25)
theorem hcond4 : ∀ t : Fin cfg0.N, cond4 (grid0.coords t) ↔ 25 ≤ t.val :=
  (by decide +kernel : ∀ t : Fin grid0.N, cond4 (grid0.coords t) ↔ 25 ≤ t.val)

/-- The row block of a point: its second grid coordinate. -/
theorem coords_1 : ∀ t : Fin cfg0.N, ((grid0.coords t) 1).val = t.val % 25 :=
  (by decide +kernel : ∀ t : Fin grid0.N, ((grid0.coords t) 1).val = t.val % 25)

/-- The result window is idle exactly in the first phase, and is written back at every point of the second. -/
theorem idle7 : ∀ t : Fin cfg0.N, cfg0.idle 7 (grid0.coords t) = decide (t.val < 25) :=
  (by decide +kernel : ∀ t : Fin grid0.N, idle0 7 (grid0.coords t) = decide (t.val < 25))
theorem flush7 : ∀ t : Fin cfg0.N, (cfg0.win 7).flush t = decide (25 ≤ t.val) :=
  (by decide +kernel : ∀ t : Fin grid0.N, win0_7.flush t = decide (25 ≤ t.val))

end Cert.KernelIdeal.Hand

end
-- ==== Proof.KI.RunA.lean ====
/-
  The body at the first point: the first layer's features x·W1 + b1 are computed and stored whole into the feature
  scratch; then, as at every point of the first phase, the two halves of the adjacency's row block are multiplied with
  the features just stored and the rectified products go into the aggregate's first two slabs of 200 rows.
-/
import proofs.«129092_g28501402976259_cont_9to1_647_12_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The pieces the body leaves in the feature scratch and in the aggregate (last first), with the run. -/
noncomputable def runA (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : condA i) (hC : ¬condC i) (h3 : cond3 i) (h4 : ¬cond4 i)
    (x0 : Vec F S10000x128 .f32) (w1 : Vec F S128x128 .f32) (b1 : Vec F S1x128 .f32)
    (a0 a1 : Vec F S200x10000 .f32) (xh : Vec F S10000x128 .f32) :
    Σ' (LS0 : List (View.Piece (Elt F) S10000x128 .f32)), { LS1 : List (View.Piece (Elt F) S10000x128 .f32) //
      ∀ (xg : Vec F S10000x128 .f32) (E : Set ℕ) (K : PUnit → sProp 𝕄),
        iprop(owns (c : Thread nD τ) arg2 fullShare x0 ∗ owns (c : Thread nD τ) arg3 fullShare w1 ∗ owns (c : Thread nD τ) arg4 fullShare b1 ∗ owns (c : Thread nD τ) arg7 fullShare a0 ∗ owns (c : Thread nD τ) arg8 fullShare a1 ∗ owns (c : Thread nD τ) arg10 fullShare xh ∗ owns (c : Thread nD τ) arg11 fullShare xg
            ∗ (iprop(owns (c : Thread nD τ) arg2 fullShare x0 ∗ owns (c : Thread nD τ) arg3 fullShare w1 ∗ owns (c : Thread nD τ) arg4 fullShare b1 ∗ owns (c : Thread nD τ) arg7 fullShare a0 ∗ owns (c : Thread nD τ) arg8 fullShare a1
                ∗ (arg10.view.loc (c : Thread nD τ) ↦[arg10.view.set]{fullShare} arg10.view.writes (Elt F) (harg10.unread xh) LS0)
                ∗ (arg11.view.loc (c : Thread nD τ) ↦[arg11.view.set]{fullShare} arg11.view.writes (Elt F) (harg11.unread xg) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun xg E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f7, %hf7, H7⟩, ⟨%f8, %hf8, H8⟩, ⟨%f10, %hf10, H10⟩, ⟨%f11, %hf11, H11⟩, Hk⟩
    obtain rfl := harg2.eq_unread hf2; obtain rfl := harg3.eq_unread hf3; obtain rfl := harg4.eq_unread hf4
    obtain rfl := harg7.eq_unread hf7; obtain rfl := harg8.eq_unread hf8
    obtain rfl := harg10.eq_unread hf10; obtain rfl := harg11.eq_unread hf11
    sl_exec (disch := first | exact hA | exact hC | exact h3 | exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; exact harg7.read_unread _
      iexact H7
    isplitl [H8]
    · iexists _; isplitr; · ipureintro; exact harg8.read_unread _
      iexact H8
    isplitl [H10]; · iexact H10
    iexact H11

end Cert.KernelIdeal.Hand

end
-- ==== Proof.KI.RunB.lean ====
/-
  The body at a point of the first phase past its first row block: the two halves of the adjacency's row block are
  multiplied with the resident features, and the rectified products are stored into the aggregate's two slabs of
  200 rows at the block's offset; nothing else is written.
-/
import proofs.«129092_g28501402976259_cont_9to1_647_12_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The pieces the body leaves in the aggregate (last first), with the run: holding the two adjacency halves at
    `a0`, `a1`, the features at `xh` and the aggregate at `xg`, the body ends holding the first three as they were
    and the aggregate with the pieces written over `xg`. -/
noncomputable def runB (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : ¬condC i) (h3 : cond3 i) (h4 : ¬cond4 i)
    (a0 a1 : Vec F S200x10000 .f32) (xh : Vec F S10000x128 .f32) :
    { LS1 : List (View.Piece (Elt F) S10000x128 .f32) //
      ∀ (xg : Vec F S10000x128 .f32) (E : Set ℕ) (K : PUnit → sProp 𝕄),
        iprop(owns (c : Thread nD τ) arg7 fullShare a0 ∗ owns (c : Thread nD τ) arg8 fullShare a1 ∗ owns (c : Thread nD τ) arg10 fullShare xh ∗ owns (c : Thread nD τ) arg11 fullShare xg
            ∗ (iprop(owns (c : Thread nD τ) arg7 fullShare a0 ∗ owns (c : Thread nD τ) arg8 fullShare a1 ∗ owns (c : Thread nD τ) arg10 fullShare xh
                ∗ (arg11.view.loc (c : Thread nD τ) ↦[arg11.view.set]{fullShare} arg11.view.writes (Elt F) (harg11.unread xg) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun xg E K => ?run⟩
  case run =>
    simp only [cc0__gcn_kernel_eq_skeleton]; unfold cc0__gcn_kernel_skel
    unfold owns
    iintro ⟨⟨%f7, %hf7, H7⟩, ⟨%f8, %hf8, H8⟩, ⟨%f10, %hf10, H10⟩, ⟨%f11, %hf11, H11⟩, Hk⟩
    obtain rfl := harg7.eq_unread hf7; obtain rfl := harg8.eq_unread hf8
    obtain rfl := harg10.eq_unread hf10; obtain rfl := harg11.eq_unread hf11
    sl_exec (disch := first | exact hA | exact hC | exact h3 | exact h4)
    sl_step
    iapply Hk
    isplitl [H7]
    · iexists _; isplitr; · ipureintro; exact harg7.read_unread _
      iexact H7
    isplitl [H8]
    · iexists _; isplitr; · ipureintro; exact harg8.read_unread _
      iexact H8
    isplitl [H10]
    · iexists _; isplitr; · ipureintro; exact harg10.read_unread _
      iexact H10
    iexact H11

end Cert.KernelIdeal.Hand

end
-- ==== Proof.KI.RunC.lean ====
/-
  The body at the first point of the second phase: the second layer's features agg·W2 + b2 are computed from the
  finished aggregate and stored whole into the feature scratch; then, as at every point of the second phase, the two
  halves of the adjacency's row block are multiplied with the features just stored and the products are the two halves
  of the result's block.
-/
import proofs.«129092_g28501402976259_cont_9to1_647_12_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The pieces the body leaves in the result's staging buffer and in the feature scratch (last first), with the run. -/
noncomputable def runC (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : condC i) (h3 : ¬cond3 i) (h4 : cond4 i)
    (w2 : Vec F S128x128 .f32) (b2 : Vec F S1x128 .f32)
    (a0 a1 : Vec F S200x10000 .f32) (xo : Vec F S400x128 .f32) (xh : Vec F S10000x128 .f32) (xg : Vec F S10000x128 .f32) :
    Σ' (L7 : List (View.Piece (Elt F) S400x128 .f32)), { LS0 : List (View.Piece (Elt F) S10000x128 .f32) //
      ∀ (E : Set ℕ) (K : PUnit → sProp 𝕄),
        iprop(owns (c : Thread nD τ) arg5 fullShare w2 ∗ owns (c : Thread nD τ) arg6 fullShare b2 ∗ owns (c : Thread nD τ) arg7 fullShare a0 ∗ owns (c : Thread nD τ) arg8 fullShare a1 ∗ owns (c : Thread nD τ) arg9 fullShare xo ∗ owns (c : Thread nD τ) arg10 fullShare xh ∗ owns (c : Thread nD τ) arg11 fullShare xg
            ∗ (iprop(owns (c : Thread nD τ) arg5 fullShare w2 ∗ owns (c : Thread nD τ) arg6 fullShare b2 ∗ owns (c : Thread nD τ) arg7 fullShare a0 ∗ owns (c : Thread nD τ) arg8 fullShare a1
                ∗ (arg9.view.loc (c : Thread nD τ) ↦[arg9.view.set]{fullShare} arg9.view.writes (Elt F) (harg9.unread xo) L7)
                ∗ (arg10.view.loc (c : Thread nD τ) ↦[arg10.view.set]{fullShare} arg10.view.writes (Elt F) (harg10.unread xh) LS0)
                ∗ owns (c : Thread nD τ) arg11 fullShare xg) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gcn_kernel_eq_skeleton]; unfold cc0__gcn_kernel_skel
    unfold owns
    iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg5.eq_unread hf5; obtain rfl := harg6.eq_unread hf6
    obtain rfl := harg7.eq_unread hf7; obtain rfl := harg8.eq_unread hf8; obtain rfl := harg9.eq_unread hf9
    obtain rfl := harg10.eq_unread hf10; obtain rfl := harg11.eq_unread hf11
    sl_exec (disch := first | exact hA | exact hC | exact h3 | exact h4)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    iexists _; isplitr; · ipureintro; exact harg11.read_unread _
    iexact H11

end Cert.KernelIdeal.Hand

end
-- ==== Proof.KI.RunD.lean ====
/-
  The body at a point of the second phase past its first row block: the two halves of the adjacency's row block are
  multiplied with the resident features and the products are the two halves of the result's block; nothing else is
  written.
-/
import proofs.«129092_g28501402976259_cont_9to1_647_12_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The pieces the body leaves in the result's staging buffer (last first), with the run. -/
noncomputable def runD (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : ¬condC i) (h3 : ¬cond3 i) (h4 : cond4 i)
    (a0 a1 : Vec F S200x10000 .f32) (xo : Vec F S400x128 .f32) (xh : Vec F S10000x128 .f32) :
    { L7 : List (View.Piece (Elt F) S400x128 .f32) //
      ∀ (E : Set ℕ) (K : PUnit → sProp 𝕄),
        iprop(owns (c : Thread nD τ) arg7 fullShare a0 ∗ owns (c : Thread nD τ) arg8 fullShare a1 ∗ owns (c : Thread nD τ) arg9 fullShare xo ∗ owns (c : Thread nD τ) arg10 fullShare xh
            ∗ (iprop(owns (c : Thread nD τ) arg7 fullShare a0 ∗ owns (c : Thread nD τ) arg8 fullShare a1
                ∗ (arg9.view.loc (c : Thread nD τ) ↦[arg9.view.set]{fullShare} arg9.view.writes (Elt F) (harg9.unread xo) L7)
                ∗ owns (c : Thread nD τ) arg10 fullShare xh) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f7, %hf7, H7⟩, ⟨%f8, %hf8, H8⟩, ⟨%f9, %hf9, H9⟩, ⟨%f10, %hf10, H10⟩, Hk⟩
    obtain rfl := harg7.eq_unread hf7; obtain rfl := harg8.eq_unread hf8; obtain rfl := harg9.eq_unread hf9
    obtain rfl := harg10.eq_unread hf10
    sl_exec (disch := first | exact hA | exact hC | exact h3 | exact h4)
    sl_step
    iapply Hk
    isplitl [H7]
    · iexists _; isplitr; · ipureintro; exact harg7.read_unread _
      iexact H7
    isplitl [H8]
    · iexists _; isplitr; · ipureintro; exact harg8.read_unread _
      iexact H8
    isplitl [H9]; · iexact H9
    iexists _; isplitr; · ipureintro; exact harg10.read_unread _
    iexact H10

end Cert.KernelIdeal.Hand

end
-- ==== Proof.KI.Pieces.lean ====
/-
  What the body's stores leave, case by case, as lists of pieces (last store first) over the contents the body was
  handed: the feature scratch receives one whole-array piece, x · W + b of the layer at hand; the aggregate receives
  two slabs of 200 rows at the row block's offset, the rectified products of the adjacency's two half blocks with the
  resident features; the result's staging buffer receives the two half blocks' products as its upper and lower
  halves. Features stored and read back within one point are the stored value.
-/
import proofs.«129092_g28501402976259_cont_9to1_647_12_alg».proof.Proof.KI.RunA
import proofs.«129092_g28501402976259_cont_9to1_647_12_alg».proof.Proof.KI.RunB
import proofs.«129092_g28501402976259_cont_9to1_647_12_alg».proof.Proof.KI.RunC
import proofs.«129092_g28501402976259_cont_9to1_647_12_alg».proof.Proof.KI.RunD
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a rank-2 access, as the function the library's whole-block lemmas ask for. -/
theorem hz2 : (![0, 0] : Fin 2 → Nat) = fun _ => 0 := by funext a; fin_cases a <;> rfl

/-- The aggregate's two slabs at grid coordinates `i` of the first phase, over half blocks `a0`, `a1` and features `h`. -/
def slabs (i : grid0.Coords) (h3 : cond3 i) (a0 a1 : Vec F S200x10000 .f32) (h : Vec F S10000x128 .f32) :
    List (View.Piece (Elt F) S10000x128 .f32) :=
  [⟨Rect.unit (s := S10000x128) (k0_off2 i) S200x128.size (k0_off2_inb i h3), k0_pay6 a1 h⟩,
   ⟨Rect.unit (s := S10000x128) (k0_off1 i) S200x128.size (k0_off1_inb i h3), k0_pay5 a0 h⟩]

/-- The result block's two halves over half blocks `a0`, `a1` and features `h`. -/
def halves (a0 a1 : Vec F S200x10000 .f32) (h : Vec F S10000x128 .f32) : List (View.Piece (Elt F) S400x128 .f32) :=
  [⟨Rect.unit (s := S400x128) ![200, 0] S200x128.size inb_S400x128_S200x128_200_0, k0_pay4 a1 h⟩,
   ⟨Rect.unit (s := S400x128) ![0, 0] S200x128.size inb_S400x128_S200x128_0_0, k0_pay3 a0 h⟩]

/-- A whole feature table as one piece. -/
def wholeFeat (h : Vec F S10000x128 .f32) : List (View.Piece (Elt F) S10000x128 .f32) :=
  [⟨Rect.unit (s := S10000x128) ![0, 0] S10000x128.size inb_S10000x128_S10000x128_0_0, h⟩]

theorem runA_feat (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : condA i) (hC : ¬condC i) (h3 : cond3 i) (h4 : ¬cond4 i)
    (x0 : Vec F S10000x128 .f32) (w1 : Vec F S128x128 .f32) (b1 : Vec F S1x128 .f32)
    (a0 a1 : Vec F S200x10000 .f32) (xh : Vec F S10000x128 .f32) :
    (runA c i arg2 harg2 arg3 harg3 arg4 harg4 arg5 harg5 arg6 harg6 arg7 harg7 arg8 harg8 arg9 harg9 arg10 harg10 arg11 harg11 hA hC h3 h4 x0 w1 b1 a0 a1 xh).1 = wholeFeat (k0_pay1 x0 w1 b1) := by
  unfold runA wholeFeat; dsimp only
  sl_unfold_run_names
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runA_agg (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : condA i) (hC : ¬condC i) (h3 : cond3 i) (h4 : ¬cond4 i)
    (x0 : Vec F S10000x128 .f32) (w1 : Vec F S128x128 .f32) (b1 : Vec F S1x128 .f32)
    (a0 a1 : Vec F S200x10000 .f32) (xh : Vec F S10000x128 .f32) :
    (runA c i arg2 harg2 arg3 harg3 arg4 harg4 arg5 harg5 arg6 harg6 arg7 harg7 arg8 harg8 arg9 harg9 arg10 harg10 arg11 harg11 hA hC h3 h4 x0 w1 b1 a0 a1 xh).2.1 = slabs i h3 a0 a1 (k0_pay1 x0 w1 b1) := by
  unfold runA slabs; dsimp only
  sl_unfold_run_names
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runB_agg (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : ¬condC i) (h3 : cond3 i) (h4 : ¬cond4 i)
    (a0 a1 : Vec F S200x10000 .f32) (xh : Vec F S10000x128 .f32) :
    (runB c i arg2 harg2 arg3 harg3 arg4 harg4 arg5 harg5 arg6 harg6 arg7 harg7 arg8 harg8 arg9 harg9 arg10 harg10 arg11 harg11 hA hC h3 h4 a0 a1 xh).1 = slabs i h3 a0 a1 xh := by
  unfold runB slabs; dsimp only
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runC_out (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : condC i) (h3 : ¬cond3 i) (h4 : cond4 i)
    (w2 : Vec F S128x128 .f32) (b2 : Vec F S1x128 .f32)
    (a0 a1 : Vec F S200x10000 .f32) (xo : Vec F S400x128 .f32) (xh : Vec F S10000x128 .f32) (xg : Vec F S10000x128 .f32) :
    (runC c i arg2 harg2 arg3 harg3 arg4 harg4 arg5 harg5 arg6 harg6 arg7 harg7 arg8 harg8 arg9 harg9 arg10 harg10 arg11 harg11 hA hC h3 h4 w2 b2 a0 a1 xo xh xg).1 = halves a0 a1 (k0_pay2 xg w2 b2) := by
  unfold runC halves; dsimp only
  sl_unfold_run_names
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runC_feat (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : condC i) (h3 : ¬cond3 i) (h4 : cond4 i)
    (w2 : Vec F S128x128 .f32) (b2 : Vec F S1x128 .f32)
    (a0 a1 : Vec F S200x10000 .f32) (xo : Vec F S400x128 .f32) (xh : Vec F S10000x128 .f32) (xg : Vec F S10000x128 .f32) :
    (runC c i arg2 harg2 arg3 harg3 arg4 harg4 arg5 harg5 arg6 harg6 arg7 harg7 arg8 harg8 arg9 harg9 arg10 harg10 arg11 harg11 hA hC h3 h4 w2 b2 a0 a1 xo xh xg).2.1 = wholeFeat (k0_pay2 xg w2 b2) := by
  unfold runC wholeFeat; dsimp only
  sl_unfold_run_names
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

theorem runD_out (c : Dev nD) (i : grid0.Coords) (arg2 : Memref sig .tc .vmem S10000x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S200x10000 .f32) (harg7 : arg7.IsWhole)
    (arg8 : Memref sig .tc .vmem S200x10000 .f32) (harg8 : arg8.IsWhole) (arg9 : Memref sig .tc .vmem S400x128 .f32) (harg9 : arg9.IsWhole)
    (arg10 : Memref sig .tc .vmem S10000x128 .f32) (harg10 : arg10.IsWhole) (arg11 : Memref sig .tc .vmem S10000x128 .f32) (harg11 : arg11.IsWhole)
    (hA : ¬condA i) (hC : ¬condC i) (h3 : ¬cond3 i) (h4 : cond4 i)
    (a0 a1 : Vec F S200x10000 .f32) (xo : Vec F S400x128 .f32) (xh : Vec F S10000x128 .f32) :
    (runD c i arg2 harg2 arg3 harg3 arg4 harg4 arg5 harg5 arg6 harg6 arg7 harg7 arg8 harg8 arg9 harg9 arg10 harg10 arg11 harg11 hA hC h3 h4 a0 a1 xo xh).1 = halves a0 a1 xh := by
  unfold runD halves; dsimp only
  simp only [View.readAt_eq_ld, Memref.IsWhole.read_unread, View.ld_unit_zero (S := S200x10000) hz2, View.ld_unit_zero (S := S10000x128) hz2,
    View.ld_unit_zero (S := S128x128) hz2, View.ld_unit_zero (S := S1x128) hz2, View.readCov_unit_zero (S := S10000x128) _ hz2]

end Cert.KernelIdeal.Hand

end
-- ==== Proof.KI.Data.lean ====
/-
  The pipeline's proof data. The region finds the arrays as the two host reshapes leave them. Between grid points
  the kernel carries two scratch arrays: the feature table — x · W1 + b1 after the first point, agg · W2 + b2 after
  the first point of the second phase — and the aggregate, which after point n of the first phase holds the
  rectified slabs of row blocks 0 … n written over whatever it held before. The slabs of all 25 row blocks tile
  the aggregate, so at the start of the second phase it is one array whatever it held at launch. The result's
  staging buffer is untouched in the first phase (its window is idle there and not written back) and in the second
  phase receives the row block's two halves at every point, each point writing its block back.
-/
import proofs.«129092_g28501402976259_cont_9to1_647_12_alg».proof.Proof.KI.Pieces
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s buffer contents when the region is entered: after the two reshapes of the bias vectors. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two reshapes, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The grid's points and the windows' blocks -/

theorem N50 : cfg0.N = 50 := N_0

/-- Point `n` of the grid. -/
def pt (n : Nat) (h : n < 50) : Fin cfg0.N := ⟨n, lt_of_lt_of_eq h N50.symm⟩

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The blocks by name, at their literal types: the node features, the two weight matrices, the two bias rows, and
    the adjacency's two half row blocks at point `t`. -/
abbrev xBlk (c : Dev nD) (t : Fin cfg0.N) : Vec F S10000x128 .f32 := iblk m c 0 t
abbrev w1Blk (c : Dev nD) (t : Fin cfg0.N) : Vec F S128x128 .f32 := iblk m c 1 t
abbrev b1Blk (c : Dev nD) (t : Fin cfg0.N) : Vec F S1x128 .f32 := iblk m c 2 t
abbrev w2Blk (c : Dev nD) (t : Fin cfg0.N) : Vec F S128x128 .f32 := iblk m c 3 t
abbrev b2Blk (c : Dev nD) (t : Fin cfg0.N) : Vec F S1x128 .f32 := iblk m c 4 t
abbrev adjLo (c : Dev nD) (t : Fin cfg0.N) : Vec F S200x10000 .f32 := iblk m c 5 t
abbrev adjHi (c : Dev nD) (t : Fin cfg0.N) : Vec F S200x10000 .f32 := iblk m c 6 t

/-! ## What the kernel carries -/

/-- The two scratch arrays, as whole memrefs, and one staging buffer of the result through which its block is stated. -/
abbrev sc0 : Memref sig .tc .vmem S10000x128 .f32 := Memref.whole cc0_scratch0
abbrev sc1 : Memref sig .tc .vmem S10000x128 .f32 := Memref.whole cc0_scratch1
abbrev VO7 : View sig .tc .vmem S400x128 .f32 := (Memref.whole cc0_stg7_0 : Memref sig .tc .vmem S400x128 .f32).view

/-- The first layer's features x · W1 + b1, as the first point stores them. -/
def feat1 (c : Dev nD) : Vec F S10000x128 .f32 :=
  k0_pay1 (xBlk m c (pt 0 (by decide))) (w1Blk m c (pt 0 (by decide))) (b1Blk m c (pt 0 (by decide)))

/-- The two slabs point `t` of the first phase writes into the aggregate. -/
def aggSlabs (c : Dev nD) (t : Fin cfg0.N) (h : t.val < 25) : List (View.Piece (Elt F) S10000x128 .f32) :=
  slabs (grid0.coords t) ((hcond3 t).mpr h) (adjLo m c t) (adjHi m c t) (feat1 m c)

/-- All slabs written up to and including point `n` of the first phase, the last first. -/
def aggPieces (c : Dev nD) : (n : Nat) → n < 25 → List (View.Piece (Elt F) S10000x128 .f32)
  | 0, h => aggSlabs m c (pt 0 (by decide)) h
  | n + 1, h => aggSlabs m c (pt (n + 1) (by omega)) h ++ aggPieces c n (by omega)

/-- The finished aggregate relu (adj · feat1): all 50 slabs read back. -/
def aggFull (c : Dev nD) : Vec F S10000x128 .f32 :=
  sc1.view.read (Elt F) (sc1.view.writes (Elt F) sc1.view.junk (aggPieces m c 24 (by decide)))

/-- The second layer's features agg · W2 + b2, as the first point of the second phase stores them. -/
def feat2 (c : Dev nD) : Vec F S10000x128 .f32 :=
  k0_pay2 (aggFull m c) (w2Blk m c (pt 25 (by decide))) (b2Blk m c (pt 25 (by decide)))

/-- The result's block as a point of the second phase leaves it: the two half blocks' products read back. -/
def outBlock (c : Dev nD) (t : Fin cfg0.N) : Vec F S400x128 .f32 :=
  VO7.read (Elt F) (VO7.writes (Elt F) VO7.junk (halves (adjLo m c t) (adjHi m c t) (feat2 m c)))

/-! ## The invariant between points -/

/-- Before point `n`: at the start both scratch arrays at anything; within the first phase the features at
    `feat1` and the aggregate with the slabs so far written over some contents; from the second phase's second
    point on the features at `feat2` and the aggregate at anything. -/
def Phi (c : Dev nD) : (n : Nat) → n ≤ 50 → sProp 𝕄
  | 0, _ => iprop((∃ d, owns (c : Thread nD τ) sc0 fullShare d) ∗ (∃ d, owns (c : Thread nD τ) sc1 fullShare d))
  | n + 1, _ =>
    if h25 : n < 25 then
      iprop(owns (c : Thread nD τ) sc0 fullShare (feat1 m c)
        ∗ (∃ g, sc1.view.loc (c : Thread nD τ) ↦[sc1.view.set]{fullShare} sc1.view.writes (Elt F) g (aggPieces m c n h25)))
    else
      iprop(owns (c : Thread nD τ) sc0 fullShare (feat2 m c) ∗ (∃ d, owns (c : Thread nD τ) sc1 fullShare d))

theorem Phi_zero (c : Dev nD) (h : 0 ≤ 50) :
    Phi m c 0 h = iprop((∃ d, owns (c : Thread nD τ) sc0 fullShare d) ∗ (∃ d, owns (c : Thread nD τ) sc1 fullShare d)) := rfl

theorem Phi_first (c : Dev nD) (n : Nat) (h : n + 1 ≤ 50) (h25 : n < 25) :
    Phi m c (n + 1) h = iprop(owns (c : Thread nD τ) sc0 fullShare (feat1 m c)
      ∗ (∃ g, sc1.view.loc (c : Thread nD τ) ↦[sc1.view.set]{fullShare} sc1.view.writes (Elt F) g (aggPieces m c n h25))) :=
  dif_pos h25

theorem Phi_second (c : Dev nD) (n : Nat) (h : n + 1 ≤ 50) (h25 : ¬ n < 25) :
    Phi m c (n + 1) h = iprop(owns (c : Thread nD τ) sc0 fullShare (feat2 m c) ∗ (∃ d, owns (c : Thread nD τ) sc1 fullShare d)) :=
  dif_neg h25

/-! ## The proof data -/

/-- The proof data of the pipeline on core `c`: the arrays as the region finds them; after the body each input's
    buffer at its block and the result's at `outBlock`; the adjacency, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
  Φ t := Phi m c t.val ((Nat.le_of_lt_succ t.isLt).trans_eq N50)
  q w := match w with
    | ⟨0, _⟩ => fullShare
    | ⟨1, _⟩ => fullShare
    | ⟨2, _⟩ => fullShare
    | ⟨3, _⟩ => fullShare
    | ⟨4, _⟩ => fullShare
    | ⟨5, _⟩ => fullShare.left
    | ⟨6, _⟩ => fullShare.right
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock m c t := by dsimp only [dats]

/-! Each input window's current staging buffer holds its block at every point, fetched there or not: the window is
    never idle, its blocks tile its array, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)

end Cert.KernelIdeal.Hand

end
-- ==== Proof.KI.BodyDefs.lean ====
/-
  What the body obligation is stated over: how stored pieces read back, the invariant at a point given what is known
  of the point's position, the staging memrefs the pipeline passes the body, and the obligation's two sides with the
  windows one by one.
-/
import proofs.«129092_g28501402976259_cont_9to1_647_12_alg».proof.Proof.KI.Data
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## Reading stored pieces back -/

/-- A feature table stored whole reads back as stored, whatever the buffer held. -/
theorem read_wholeFeat (M : Memref sig .tc .vmem S10000x128 .f32) (f : M.view.ty.Contents (Elt F)) (h : Vec F S10000x128 .f32) :
    M.view.read (Elt F) (M.view.writes (Elt F) f (wholeFeat h)) = h := by
  unfold wholeFeat
  rw [View.read_writes_eq_canon _ _ _ (fun y => ⟨_, List.mem_singleton_self _, View.mem_set_unit_zero hz2 inb_S10000x128_S10000x128_0_0 y⟩),
    View.canon_unit_zero hz2]

/-- The two halves tile the result's block. -/
theorem halves_cover (a0 a1 : Vec F S200x10000 .f32) (h : Vec F S10000x128 .f32) (y : S400x128.Idx) :
    ∃ p ∈ halves a0 a1 h, y ∈ p.1.set :=
  View.cover_of_tiledL (halves a0 a1 h) S200x128.size (by sl_kernel_rfl) y

/-! ## The carried values at a point whose position is known -/

theorem feat1_at (c : Dev nD) (t : Fin cfg0.N) (hz : t.val = 0) :
    k0_pay1 (xBlk m c t) (w1Blk m c t) (b1Blk m c t) = feat1 m c := by
  obtain rfl : t = pt 0 (by decide) := Fin.ext hz
  rfl

theorem feat2_at (c : Dev nD) (t : Fin cfg0.N) (hz : t.val = 25) :
    k0_pay2 (aggFull m c) (w2Blk m c t) (b2Blk m c t) = feat2 m c := by
  obtain rfl : t = pt 25 (by decide) := Fin.ext hz
  rfl

theorem aggPieces_at_zero (c : Dev nD) (t : Fin cfg0.N) (hz : t.val = 0) (h25 : t.val < 25) :
    aggPieces m c t.val h25 = aggSlabs m c t h25 := by
  obtain ⟨n, hn⟩ := t
  dsimp only at hz h25 ⊢
  subst hz
  rfl

theorem aggPieces_at_succ (c : Dev nD) (t : Fin cfg0.N) (k : Nat) (hk : t.val = k + 1) (h25 : t.val < 25) :
    aggPieces m c t.val h25 = aggSlabs m c t h25 ++ aggPieces m c k (by omega) := by
  obtain ⟨n, hn⟩ := t
  dsimp only at hk h25 ⊢
  subst hk
  rfl

/-! ## The invariant at a point -/

theorem Phi_cast (c : Dev nD) (t : Fin cfg0.N) :
    (dats m 0 c).Φ t.castSucc = Phi m c t.val (le_of_lt (lt_of_lt_of_eq t.isLt N50)) := by
  dsimp only [dats]; simp only [Fin.coe_castSucc]

theorem Phi_succ (c : Dev nD) (t : Fin cfg0.N) :
    (dats m 0 c).Φ t.succ = Phi m c (t.val + 1) (lt_of_lt_of_eq t.isLt N50) := rfl

theorem Phi_of_zero (c : Dev nD) (n : Nat) (h : n ≤ 50) (hz : n = 0) :
    Phi m c n h = iprop((∃ d, owns (c : Thread nD τ) sc0 fullShare d) ∗ (∃ d, owns (c : Thread nD τ) sc1 fullShare d)) := by
  subst hz; rfl

theorem Phi_of_first (c : Dev nD) (n : Nat) (h : n ≤ 50) (k : Nat) (hk : n = k + 1) (h25 : k < 25) :
    Phi m c n h = iprop(owns (c : Thread nD τ) sc0 fullShare (feat1 m c)
      ∗ (∃ g, sc1.view.loc (c : Thread nD τ) ↦[sc1.view.set]{fullShare} sc1.view.writes (Elt F) g (aggPieces m c k h25))) := by
  subst hk; exact dif_pos h25

theorem Phi_of_second (c : Dev nD) (n : Nat) (h : n ≤ 50) (k : Nat) (hk : n = k + 1) (h25 : ¬ k < 25) :
    Phi m c n h = iprop(owns (c : Thread nD τ) sc0 fullShare (feat2 m c) ∗ (∃ d, owns (c : Thread nD τ) sc1 fullShare d)) := by
  subst hk; exact dif_neg h25

/-! ## The staging memrefs and the obligation's two sides -/

/-- Each window's current staging memref at point `t`, as the pipeline passes it to the body, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.KernelIdeal.Hand

end
-- ==== Proof.KI.BodyFirst.lean ====
/-
  The body obligation at the first point: both scratch arrays are handed over at anything; the first layer's features
  are stored whole and read back as stored; the first two slabs go into the aggregate.
-/
import proofs.«129092_g28501402976259_cont_9to1_647_12_alg».proof.Proof.KI.BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem sound_first (c : Dev nD) (t : Fin cfg0.N) (hz : t.val = 0) :
    bodyPre m c t ⊢ wp frame (wpE (defs₀ (F := F)) Variants.none c none) Set.univ (bodyAt0 t) (fun _ => bodyPost m c t) := by
  have h25 : t.val < 25 := by omega
  have hA : condA (grid0.coords t) := (hcondA t).mpr hz
  have hC : ¬condC (grid0.coords t) := fun h => by have := (hcondC t).mp h; omega
  have h3 : cond3 (grid0.coords t) := (hcond3 t).mpr h25
  have h4 : ¬cond4 (grid0.coords t) := fun h => by have := (hcond4 t).mp h; omega
  unfold bodyPre bodyPost bodyAt0
  simp only [before0, before1, before2, before3, before4, before5, before6]
  rw [show (dats m 0 c).owesAt () t.succ = (dats m 0 c).owesAt () t.castSucc from rfl]
  rw [Phi_cast, Phi_succ]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (iblk m c 3 t) from by
    unfold Dat.leavesExact; rw [show cfg0.idle 3 (cfg0.grid.coords t) = false from rfl, after3]]
  rw [show (dats m 0 c).leavesExact 4 t = owns (c : Thread nD τ) (ms4 t) fullShare (iblk m c 4 t) from by
    unfold Dat.leavesExact; rw [show cfg0.idle 4 (cfg0.grid.coords t) = false from rfl, after4]]
  rw [show (dats m 0 c).leavesExact 5 t = owns (c : Thread nD τ) (ms5 t) fullShare (iblk m c 5 t) from by
    unfold Dat.leavesExact; rw [show cfg0.idle 5 (cfg0.grid.coords t) = false from rfl, after5]]
  rw [show (dats m 0 c).leavesExact 6 t = owns (c : Thread nD τ) (ms6 t) fullShare (iblk m c 6 t) from by
    unfold Dat.leavesExact; rw [show cfg0.idle 6 (cfg0.grid.coords t) = false from rfl, after6]]
  rw [Dat.leavesExact_idle (dats m 0 c) 7 t (by rw [idle7 t]; exact decide_eq_true h25)
    (by rw [flush7 t]; exact decide_eq_false (by omega))]
  rw [Phi_of_zero m c _ _ hz, Phi_first m c t.val _ h25, aggPieces_at_zero m c t hz h25]
  unfold aggSlabs
  iintro ⟨⟨⟨%d0, HS0⟩, ⟨%d1, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) hA hC h3 h4
    (xBlk m c t) (w1Blk m c t) (b1Blk m c t) (adjLo m c t) (adjHi m c t) d0).2.2 d1 Set.univ _)
  isplitl [H0]; · iexact H0
  isplitl [H1]; · iexact H1
  isplitl [H2]; · iexact H2
  isplitl [H5]; · iexact H5
  isplitl [H6]; · iexact H6
  isplitl [HS0]; · iexact HS0
  isplitl [HS1]; · iexact HS1
  iintro ⟨H0, H1, H2, H5, H6, HS0, HS1⟩
  rw [runA_agg, runA_feat, feat1_at m c t hz]
  isplitl [HS0 HS1]
  · isplitl [HS0]
    · unfold owns; iexists _; isplitr
      swap; · iexact HS0
      ipureintro; exact read_wholeFeat _ _ _
    · iexists _; iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.KernelIdeal.Hand

end
-- ==== Proof.KI.BodyPhase1.lean ====
/-
  The body obligation at a later point of the first phase: the features are resident; two more slabs go into the
  aggregate over the slabs written so far.
-/
import proofs.«129092_g28501402976259_cont_9to1_647_12_alg».proof.Proof.KI.BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem sound_phase1 (c : Dev nD) (t : Fin cfg0.N) (k : Nat) (hk : t.val = k + 1) (h25 : t.val < 25) :
    bodyPre m c t ⊢ wp frame (wpE (defs₀ (F := F)) Variants.none c none) Set.univ (bodyAt0 t) (fun _ => bodyPost m c t) := by
  have hA : ¬condA (grid0.coords t) := fun h => by have := (hcondA t).mp h; omega
  have hC : ¬condC (grid0.coords t) := fun h => by have := (hcondC t).mp h; omega
  have h3 : cond3 (grid0.coords t) := (hcond3 t).mpr h25
  have h4 : ¬cond4 (grid0.coords t) := fun h => by have := (hcond4 t).mp h; omega
  unfold bodyPre bodyPost bodyAt0
  simp only [before0, before1, before2, before3, before4, before5, before6]
  rw [show (dats m 0 c).owesAt () t.succ = (dats m 0 c).owesAt () t.castSucc from rfl]
  rw [Phi_cast, Phi_succ]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (iblk m c 3 t) from by
    unfold Dat.leavesExact; rw [show cfg0.idle 3 (cfg0.grid.coords t) = false from rfl, after3]]
  rw [show (dats m 0 c).leavesExact 4 t = owns (c : Thread nD τ) (ms4 t) fullShare (iblk m c 4 t) from by
    unfold Dat.leavesExact; rw [show cfg0.idle 4 (cfg0.grid.coords t) = false from rfl, after4]]
  rw [show (dats m 0 c).leavesExact 5 t = owns (c : Thread nD τ) (ms5 t) fullShare (iblk m c 5 t) from by
    unfold Dat.leavesExact; rw [show cfg0.idle 5 (cfg0.grid.coords t) = false from rfl, after5]]
  rw [show (dats m 0 c).leavesExact 6 t = owns (c : Thread nD τ) (ms6 t) fullShare (iblk m c 6 t) from by
    unfold Dat.leavesExact; rw [show cfg0.idle 6 (cfg0.grid.coords t) = false from rfl, after6]]
  rw [Dat.leavesExact_idle (dats m 0 c) 7 t (by rw [idle7 t]; exact decide_eq_true h25)
    (by rw [flush7 t]; exact decide_eq_false (by omega))]
  rw [Phi_of_first m c _ _ k hk (by omega), Phi_first m c t.val _ h25, aggPieces_at_succ m c t k hk h25]
  unfold aggSlabs
  iintro ⟨⟨HS0, ⟨%g, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) hA hC h3 h4
    (adjLo m c t) (adjHi m c t) (feat1 m c)).2 (sc1.view.read (Elt F) (sc1.view.writes (Elt F) g (aggPieces m c k (by omega)))) Set.univ _)
  isplitl [H5]; · iexact H5
  isplitl [H6]; · iexact H6
  isplitl [HS0]; · iexact HS0
  isplitl [HS1]; · iapply (owns_intro (c : Thread nD τ) sc1 fullShare _); iexact HS1
  iintro ⟨H5, H6, HS0, HS1⟩
  rw [runB_agg, Memref.IsWhole.unread_read, ← View.writes_append]
  isplitl [HS0 HS1]
  · isplitl [HS0]; · iexact HS0
    iexists _; iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.KernelIdeal.Hand

end
-- ==== Proof.KI.AggCover.lean ====
/-
  The 50 slabs the first phase writes — two of 200 rows for each of the 25 row blocks of 400 — tile the aggregate's
  10000 rows, so once they are all written the aggregate is one array, whatever it held at launch.
-/
import proofs.«129092_g28501402976259_cont_9to1_647_12_alg».proof.Proof.KI.Data
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem agg_cover (c : Dev nD) (y : S10000x128.Idx) : ∃ p ∈ aggPieces m c 24 (by decide), y ∈ p.1.set :=
  View.cover_of_tiledL (aggPieces m c 24 (by decide)) S200x128.size (by sl_kernel_rfl) y

theorem read_agg (c : Dev nD) (g : sc1.view.ty.Contents (Elt F)) :
    sc1.view.read (Elt F) (sc1.view.writes (Elt F) g (aggPieces m c 24 (by decide))) = aggFull m c :=
  View.read_writes_of_cover _ _ _ _ _ (agg_cover m c)

end Cert.KernelIdeal.Hand

end
-- ==== Proof.KI.BodyTurn.lean ====
/-
  The body obligation at the first point of the second phase: the aggregate, all of its slabs written, is read whole;
  the second layer's features are stored whole and read back as stored; the first result block is written.
-/
import proofs.«129092_g28501402976259_cont_9to1_647_12_alg».proof.Proof.KI.BodyDefs
import proofs.«129092_g28501402976259_cont_9to1_647_12_alg».proof.Proof.KI.AggCover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem sound_turn (c : Dev nD) (t : Fin cfg0.N) (hz : t.val = 25) :
    bodyPre m c t ⊢ wp frame (wpE (defs₀ (F := F)) Variants.none c none) Set.univ (bodyAt0 t) (fun _ => bodyPost m c t) := by
  have h25 : ¬ t.val < 25 := by omega
  have hA : ¬condA (grid0.coords t) := fun h => by have := (hcondA t).mp h; omega
  have hC : condC (grid0.coords t) := (hcondC t).mpr hz
  have h3 : ¬cond3 (grid0.coords t) := fun h => h25 ((hcond3 t).mp h)
  have h4 : cond4 (grid0.coords t) := (hcond4 t).mpr (by omega)
  unfold bodyPre bodyPost bodyAt0
  simp only [before0, before1, before2, before3, before4, before5, before6]
  rw [show (dats m 0 c).owesAt () t.succ = (dats m 0 c).owesAt () t.castSucc from rfl]
  rw [Phi_cast, Phi_succ]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (iblk m c 3 t) from by
    unfold Dat.leavesExact; rw [show cfg0.idle 3 (cfg0.grid.coords t) = false from rfl, after3]]
  rw [show (dats m 0 c).leavesExact 4 t = owns (c : Thread nD τ) (ms4 t) fullShare (iblk m c 4 t) from by
    unfold Dat.leavesExact; rw [show cfg0.idle 4 (cfg0.grid.coords t) = false from rfl, after4]]
  rw [show (dats m 0 c).leavesExact 5 t = owns (c : Thread nD τ) (ms5 t) fullShare (iblk m c 5 t) from by
    unfold Dat.leavesExact; rw [show cfg0.idle 5 (cfg0.grid.coords t) = false from rfl, after5]]
  rw [show (dats m 0 c).leavesExact 6 t = owns (c : Thread nD τ) (ms6 t) fullShare (iblk m c 6 t) from by
    unfold Dat.leavesExact; rw [show cfg0.idle 6 (cfg0.grid.coords t) = false from rfl, after6]]
  rw [show (dats m 0 c).leavesExact 7 t = owns (c : Thread nD τ) (ms7 t) fullShare (outBlock m c t) from by
    unfold Dat.leavesExact; rw [idle7 t, decide_eq_false h25, after7]]
  rw [Phi_of_first m c _ _ 24 hz (by decide), Phi_second m c t.val _ h25]
  unfold outBlock
  iintro ⟨⟨HS0, ⟨%g, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) hA hC h3 h4
    (w2Blk m c t) (b2Blk m c t) (adjLo m c t) (adjHi m c t) ((dats m 0 c).before 7 t e7) (feat1 m c) (aggFull m c)).2.2 Set.univ _)
  isplitl [H3]; · iexact H3
  isplitl [H4]; · iexact H4
  isplitl [H5]; · iexact H5
  isplitl [H6]; · iexact H6
  isplitl [H7]; · iexact H7
  isplitl [HS0]; · iexact HS0
  isplitl [HS1]
  · unfold owns; iexists _; isplitr
    swap; · iexact HS1
    ipureintro; exact read_agg m c g
  iintro ⟨H3, H4, H5, H6, H7, HS0, HS1⟩
  rw [runC_feat, runC_out, feat2_at m c t hz]
  isplitl [HS0 HS1]
  · isplitl [HS0]
    · unfold owns; iexists _; isplitr
      swap; · iexact HS0
      ipureintro; exact read_wholeFeat _ _ _
    · iexists _; iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (halves_cover _ _ _)

end Cert.KernelIdeal.Hand

end
-- ==== Proof.KI.BodyPhase2.lean ====
/-
  The body obligation at a later point of the second phase: the features are resident and one result block is written.
-/
import proofs.«129092_g28501402976259_cont_9to1_647_12_alg».proof.Proof.KI.BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem sound_phase2 (c : Dev nD) (t : Fin cfg0.N) (k : Nat) (hk : t.val = k + 1) (h26 : 25 < t.val) :
    bodyPre m c t ⊢ wp frame (wpE (defs₀ (F := F)) Variants.none c none) Set.univ (bodyAt0 t) (fun _ => bodyPost m c t) := by
  have h25 : ¬ t.val < 25 := by omega
  have hA : ¬condA (grid0.coords t) := fun h => by have := (hcondA t).mp h; omega
  have hC : ¬condC (grid0.coords t) := fun h => by have := (hcondC t).mp h; omega
  have h3 : ¬cond3 (grid0.coords t) := fun h => h25 ((hcond3 t).mp h)
  have h4 : cond4 (grid0.coords t) := (hcond4 t).mpr (by omega)
  unfold bodyPre bodyPost bodyAt0
  simp only [before0, before1, before2, before3, before4, before5, before6]
  rw [show (dats m 0 c).owesAt () t.succ = (dats m 0 c).owesAt () t.castSucc from rfl]
  rw [Phi_cast, Phi_succ]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (iblk m c 3 t) from by
    unfold Dat.leavesExact; rw [show cfg0.idle 3 (cfg0.grid.coords t) = false from rfl, after3]]
  rw [show (dats m 0 c).leavesExact 4 t = owns (c : Thread nD τ) (ms4 t) fullShare (iblk m c 4 t) from by
    unfold Dat.leavesExact; rw [show cfg0.idle 4 (cfg0.grid.coords t) = false from rfl, after4]]
  rw [show (dats m 0 c).leavesExact 5 t = owns (c : Thread nD τ) (ms5 t) fullShare (iblk m c 5 t) from by
    unfold Dat.leavesExact; rw [show cfg0.idle 5 (cfg0.grid.coords t) = false from rfl, after5]]
  rw [show (dats m 0 c).leavesExact 6 t = owns (c : Thread nD τ) (ms6 t) fullShare (iblk m c 6 t) from by
    unfold Dat.leavesExact; rw [show cfg0.idle 6 (cfg0.grid.coords t) = false from rfl, after6]]
  rw [show (dats m 0 c).leavesExact 7 t = owns (c : Thread nD τ) (ms7 t) fullShare (outBlock m c t) from by
    unfold Dat.leavesExact; rw [idle7 t, decide_eq_false h25, after7]]
  rw [Phi_of_second m c _ _ k hk (by omega), Phi_second m c t.val _ h25]
  unfold outBlock
  iintro ⟨⟨HS0, HS1⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) hA hC h3 h4
    (adjLo m c t) (adjHi m c t) ((dats m 0 c).before 7 t e7) (feat2 m c)).2 Set.univ _)
  isplitl [H5]; · iexact H5
  isplitl [H6]; · iexact H6
  isplitl [H7]; · iexact H7
  isplitl [HS0]; · iexact HS0
  iintro ⟨H5, H6, H7, HS0⟩
  rw [runD_out]
  isplitl [HS0 HS1]
  · isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (halves_cover _ _ _)

end Cert.KernelIdeal.Hand

end
-- ==== Proof.KI.Body.lean ====
/-
  The body obligation at every grid point: the point is the first, a later one of the first phase, the first of the
  second phase, or a later one of the second; each case is its own run of the body.
-/
import proofs.«129092_g28501402976259_cont_9to1_647_12_alg».proof.Proof.KI.BodyFirst
import proofs.«129092_g28501402976259_cont_9to1_647_12_alg».proof.Proof.KI.BodyPhase1
import proofs.«129092_g28501402976259_cont_9to1_647_12_alg».proof.Proof.KI.BodyTurn
import proofs.«129092_g28501402976259_cont_9to1_647_12_alg».proof.Proof.KI.BodyPhase2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt N50
  by_cases hz : t.val = 0
  · exact sound_first m c t hz
  by_cases h25 : t.val < 25
  · exact sound_phase1 m c t (t.val - 1) (by omega) h25
  by_cases hc : t.val = 25
  · exact sound_turn m c t hc
  · exact sound_phase2 m c t (t.val - 1) (by omega) (by omega)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The run. @main is the two reshapes and then the kernel region. The launch hands the region every unscoped buffer
  at the contents the reshapes left; the adjacency's buffer, which two windows read, is dealt to them half and half;
  the two bias vectors, which no window stages, bypass the region. Every weakly fair execution terminates, the
  result array ends at what the write-backs of the second phase leave, every other array as the region found it.
-/
import proofs.«129092_g28501402976259_cont_9to1_647_12_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the eight windows' arrays, one by one: seven, the adjacency's once. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg2) ↦{fullShare} Vc main_arg2)
          ∗ (((c : Thread nD τ).loc main_v0) ↦{fullShare} Vc main_v0) ∗ (((c : Thread nD τ).loc main_arg4) ↦{fullShare} Vc main_arg4)
          ∗ (((c : Thread nD τ).loc main_v1) ↦{fullShare} Vc main_v1) ∗ (((c : Thread nD τ).loc main_arg1) ↦{fullShare} Vc main_arg1)
          ∗ (((c : Thread nD τ).loc main_v2) ↦{fullShare} Vc main_v2)) := by
  unfold Pipeline.arrBufs
  exact bigSep_eq_bigSepL_of_eq [main_arg0, main_arg2, main_v0, main_arg4, main_v1, main_arg1, main_v2] (by decide) (by decide) _

/-- The buffers behind the windows' arrays, whole at the region-entry contents, are the proof data's arrays at entry:
    six of them each one window's, the adjacency's full share split into the halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [show (dats m 0 c).share 0 = fullShare from rfl, show (dats m 0 c).share 1 = fullShare from rfl,
    show (dats m 0 c).share 2 = fullShare from rfl, show (dats m 0 c).share 3 = fullShare from rfl,
    show (dats m 0 c).share 4 = fullShare from rfl, show (dats m 0 c).share 5 = fullShare.left from rfl,
    show (dats m 0 c).share 6 = fullShare.right from rfl, show (dats m 0 c).share 7 = fullShare from rfl]
  simp only [View.set_whole]
  iintro ⟨H0, H1, H2, H3, H4, HA, H7⟩
  ihave HA' := (pointsTo_share (by rw [PosShare.left_op_right]; exact Part.mem_some _)).1 $$ HA
  icases HA' with ⟨HA5, HA6⟩
  isplitl [H0]; · iexact H0
  isplitl [H1]; · iexact H1
  isplitl [H2]; · iexact H2
  isplitl [H3]; · iexact H3
  isplitl [H4]; · iexact H4
  isplitl [HA5]; · iexact HA5
  isplitl [HA6]; · iexact HA6
  iexact H7

/-- What the launch hands the region of the scoped buffers is the invariant before the first point: the two scratch
    arrays at anything. -/
theorem hin (c : Dev nD) :
    iprop(emp ∗ Pipeline.scopedRest (Ix := Unit) (Name := ℕ) (U := UR sig nD τ) (Lvl := ℕ) (Val := Elt F) spec0 c) ⊢ (dats m 0 c).Φ 0 := by
  rw [scopedRest0_eq, show (dats m 0 c).Φ 0 = Phi m c 0 (Nat.zero_le _) from rfl, Phi_zero]
  simp only [owns_whole]
  iintro ⟨-, H⟩; iexact H

/-- After the last point the invariant gives the two scratch arrays back. -/
theorem hout (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [scopedRest0_eq]
  rw [show (dats m 0 c).Φ (Fin.last cfg0.N) = Phi m c (Fin.last cfg0.N).val ((Nat.le_of_lt_succ (Fin.last cfg0.N).isLt).trans_eq N50) from rfl]
  rw [Phi_of_second m c _ _ 49 (by rw [Fin.val_last]; exact N50) (by decide)]
  simp only [owns_whole]
  iintro ⟨H0, H1⟩
  isplitr; · iempintro
  isplitl [H0]; · iexists _; iexact H0
  iexact H1

/-- The run's post: every window's array at what the library computes from the proof data, and the buffers no
    window stages as the region found them. -/
def RunPost (r : PUnit × MemSt nD τ sig (Elt F)) : Prop :=
  ∀ c : Dev nD, (∀ w : Fin cfg0.W, r.2.mem ((spec0 w).arr.view.loc (c : Thread nD τ)) = (dats m 0 c).arrAt w cfg0.N)
    ∧ (∀ b ∈ Pipeline.restRefs sig spec0, r.2.mem ((c : Thread nD τ).loc b) = V m c b)

/-- At the compiled mesh, for any float values, from any memory with zero counters: every weakly fair execution of
    @main terminates, nothing faulting, in a state of `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun _ h => h)

end Cert.KernelIdeal.Hand

end
-- ==== Proof.KI.Blocks.lean ====
/-
  Each window's block read at one entry is the array's entry at the block's offset plus the position inside the block:
  the five resident operands' blocks are their whole arrays, the adjacency's two half row blocks at point t are rows
  400·(t mod 25) … +199 and 400·(t mod 25)+200 … +399. The two bias rows are the bias vectors reshaped, and every
  argument array reaches the region as launched.
-/
import proofs.«129092_g28501402976259_cont_9to1_647_12_alg».proof.Proof.KI.Data
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The arrays as the region finds them -/

theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results
theorem V_arg3 (c : Dev nD) : V m c main_arg3 = m ((c : Thread nD τ).loc main_arg3) := by
  dsimp only [V, V0, hostOps0]; after_results
theorem V_arg4 (c : Dev nD) : V m c main_arg4 = m ((c : Thread nD τ).loc main_arg4) := by
  dsimp only [V, V0, hostOps0]; after_results
theorem V_arg5 (c : Dev nD) : V m c main_arg5 = m ((c : Thread nD τ).loc main_arg5) := by
  dsimp only [V, V0, hostOps0]; after_results

/-- The launched arrays at their literal types. -/
abbrev xArr (c : Dev nD) : Vec F S10000x128 .f32 := m ((c : Thread nD τ).loc main_arg0)
abbrev adjArr (c : Dev nD) : Vec F S10000x10000 .f32 := m ((c : Thread nD τ).loc main_arg1)
abbrev w1Arr (c : Dev nD) : Vec F S128x128 .f32 := m ((c : Thread nD τ).loc main_arg2)
abbrev b1Arr (c : Dev nD) : Vec F S128 .f32 := m ((c : Thread nD τ).loc main_arg3)
abbrev w2Arr (c : Dev nD) : Vec F S128x128 .f32 := m ((c : Thread nD τ).loc main_arg4)
abbrev b2Arr (c : Dev nD) : Vec F S128 .f32 := m ((c : Thread nD τ).loc main_arg5)

/-- The two bias rows as the region finds them: the bias vectors in row-major order at shape [1,128]. -/
theorem V_v0 (c : Dev nD) :
    (V m c main_v0 : S1x128.Idx → Elt F .f32) = shapeCast S1x128 (b1Arr m c) shapeCasts_S128_S1x128 := by
  dsimp only [V, V0, hostOps0]; after_results; rfl
theorem V_v1 (c : Dev nD) :
    (V m c main_v1 : S1x128.Idx → Elt F .f32) = shapeCast S1x128 (b2Arr m c) shapeCasts_S128_S1x128 := by
  dsimp only [V, V0, hostOps0]; after_results; rfl

/-! ## The index maps over the grid -/

theorem idx0 : ∀ t : Fin cfg0.N, cc0_transform_0 (grid0.coords t) = ![0, 0] :=
  (by decide +kernel : ∀ t : Fin grid0.N, cc0_transform_0 (grid0.coords t) = ![0, 0])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![0, 0] :=
  (by decide +kernel : ∀ t : Fin grid0.N, cc0_transform_2 (grid0.coords t) = ![0, 0])
theorem idx3 : ∀ t : Fin cfg0.N, cc0_transform_3 (grid0.coords t) = ![0, 0] :=
  (by decide +kernel : ∀ t : Fin grid0.N, cc0_transform_3 (grid0.coords t) = ![0, 0])
theorem idx4 : ∀ t : Fin cfg0.N, cc0_transform_4 (grid0.coords t) = ![0, 0] :=
  (by decide +kernel : ∀ t : Fin grid0.N, cc0_transform_4 (grid0.coords t) = ![0, 0])
/-- The lower half block of row block t mod 25 is block 2·(t mod 25) of 200 rows, the upper the next. -/
theorem idx5 : ∀ t : Fin cfg0.N, cc0_transform_5 (grid0.coords t) = ![2 * (t.val % 25), 0] :=
  (by decide +kernel : ∀ t : Fin grid0.N, cc0_transform_5 (grid0.coords t) = ![2 * (t.val % 25), 0])
theorem idx6 : ∀ t : Fin cfg0.N, cc0_transform_6 (grid0.coords t) = ![2 * (t.val % 25) + 1, 0] :=
  (by decide +kernel : ∀ t : Fin grid0.N, cc0_transform_6 (grid0.coords t) = ![2 * (t.val % 25) + 1, 0])

/-! ## The blocks at an entry -/

theorem xBlk_apply (c : Dev nD) (t : Fin cfg0.N) (r : Fin 10000) (k : Fin 128) :
    xBlk m c t (ix2 r k) = xArr m c (ix2 r k) := by
  show V m c main_arg0 (((cfg0.win 0).blk t).view.emb (ix2 r k)) = _
  rw [V_arg0]
  refine congrArg (xArr m c) ?_
  funext a; apply Fin.ext
  have e := idx0 t
  match a with
  | ⟨0, _⟩ =>
    show cc0_transform_0 (grid0.coords t) (0 : Fin 2) * 10000 + 1 * r.val = r.val
    rw [e]; show 0 * 10000 + 1 * r.val = r.val; omega
  | ⟨1, _⟩ =>
    show cc0_transform_0 (grid0.coords t) (1 : Fin 2) * 128 + 1 * k.val = k.val
    rw [e]; show 0 * 128 + 1 * k.val = k.val; omega

theorem w1Blk_apply (c : Dev nD) (t : Fin cfg0.N) (a b : Fin 128) :
    w1Blk m c t (ix2 a b) = w1Arr m c (ix2 a b) := by
  show V m c main_arg2 (((cfg0.win 1).blk t).view.emb (ix2 a b)) = _
  rw [V_arg2]
  refine congrArg (w1Arr m c) ?_
  funext d; apply Fin.ext
  have e := idx1 t
  match d with
  | ⟨0, _⟩ =>
    show cc0_transform_1 (grid0.coords t) (0 : Fin 2) * 128 + 1 * a.val = a.val
    rw [e]; show 0 * 128 + 1 * a.val = a.val; omega
  | ⟨1, _⟩ =>
    show cc0_transform_1 (grid0.coords t) (1 : Fin 2) * 128 + 1 * b.val = b.val
    rw [e]; show 0 * 128 + 1 * b.val = b.val; omega

theorem w2Blk_apply (c : Dev nD) (t : Fin cfg0.N) (a b : Fin 128) :
    w2Blk m c t (ix2 a b) = w2Arr m c (ix2 a b) := by
  show V m c main_arg4 (((cfg0.win 3).blk t).view.emb (ix2 a b)) = _
  rw [V_arg4]
  refine congrArg (w2Arr m c) ?_
  funext d; apply Fin.ext
  have e := idx3 t
  match d with
  | ⟨0, _⟩ =>
    show cc0_transform_3 (grid0.coords t) (0 : Fin 2) * 128 + 1 * a.val = a.val
    rw [e]; show 0 * 128 + 1 * a.val = a.val; omega
  | ⟨1, _⟩ =>
    show cc0_transform_3 (grid0.coords t) (1 : Fin 2) * 128 + 1 * b.val = b.val
    rw [e]; show 0 * 128 + 1 * b.val = b.val; omega

/-- The bias rows: the [1,128] reshape of the bias vector, read at column k. -/
theorem b1Blk_apply (c : Dev nD) (t : Fin cfg0.N) (k : Fin 128) :
    b1Blk m c t (ix2 (0 : Fin 1) k) = b1Arr m c (ix1 k) := by
  show (V m c main_v0 : S1x128.Idx → Elt F .f32) (((cfg0.win 2).blk t).view.emb (ix2 (0 : Fin 1) k)) = _
  have hemb : ((cfg0.win 2).blk t).view.emb (ix2 (0 : Fin 1) k) = (ix2 (0 : Fin 1) k : S1x128.Idx) := by
    funext d; apply Fin.ext
    have e := idx2 t
    match d with
    | ⟨0, _⟩ =>
      show cc0_transform_2 (grid0.coords t) (0 : Fin 2) * 1 + 1 * 0 = 0
      rw [e]; rfl
    | ⟨1, _⟩ =>
      show cc0_transform_2 (grid0.coords t) (1 : Fin 2) * 128 + 1 * k.val = k.val
      rw [e]; show 0 * 128 + 1 * k.val = k.val; omega
  rw [hemb, V_v0]
  exact shapeCast_a_1a_apply (b1Arr m c) shapeCasts_S128_S1x128 (0 : Fin 1) k

theorem b2Blk_apply (c : Dev nD) (t : Fin cfg0.N) (k : Fin 128) :
    b2Blk m c t (ix2 (0 : Fin 1) k) = b2Arr m c (ix1 k) := by
  show (V m c main_v1 : S1x128.Idx → Elt F .f32) (((cfg0.win 4).blk t).view.emb (ix2 (0 : Fin 1) k)) = _
  have hemb : ((cfg0.win 4).blk t).view.emb (ix2 (0 : Fin 1) k) = (ix2 (0 : Fin 1) k : S1x128.Idx) := by
    funext d; apply Fin.ext
    have e := idx4 t
    match d with
    | ⟨0, _⟩ =>
      show cc0_transform_4 (grid0.coords t) (0 : Fin 2) * 1 + 1 * 0 = 0
      rw [e]; rfl
    | ⟨1, _⟩ =>
      show cc0_transform_4 (grid0.coords t) (1 : Fin 2) * 128 + 1 * k.val = k.val
      rw [e]; show 0 * 128 + 1 * k.val = k.val; omega
  rw [hemb, V_v1]
  exact shapeCast_a_1a_apply (b2Arr m c) shapeCasts_S128_S1x128 (0 : Fin 1) k

/-- The row of the adjacency that row r of the lower (upper) half block at point t is. -/
def rowLo (t : Fin cfg0.N) (r : Fin 200) : Fin 10000 := ⟨400 * (t.val % 25) + r.val, by have := r.isLt; omega⟩
def rowHi (t : Fin cfg0.N) (r : Fin 200) : Fin 10000 := ⟨400 * (t.val % 25) + 200 + r.val, by have := r.isLt; omega⟩

theorem adjLo_apply (c : Dev nD) (t : Fin cfg0.N) (r : Fin 200) (k : Fin 10000) :
    adjLo m c t (ix2 r k) = adjArr m c (ix2 (rowLo t r) k) := by
  show V m c main_arg1 (((cfg0.win 5).blk t).view.emb (ix2 r k)) = _
  rw [V_arg1]
  refine congrArg (adjArr m c) ?_
  funext d; apply Fin.ext
  have e := idx5 t
  match d with
  | ⟨0, _⟩ =>
    show cc0_transform_5 (grid0.coords t) (0 : Fin 2) * 200 + 1 * r.val = 400 * (t.val % 25) + r.val
    rw [e]; show 2 * (t.val % 25) * 200 + 1 * r.val = 400 * (t.val % 25) + r.val; omega
  | ⟨1, _⟩ =>
    show cc0_transform_5 (grid0.coords t) (1 : Fin 2) * 10000 + 1 * k.val = k.val
    rw [e]; show 0 * 10000 + 1 * k.val = k.val; omega

theorem adjHi_apply (c : Dev nD) (t : Fin cfg0.N) (r : Fin 200) (k : Fin 10000) :
    adjHi m c t (ix2 r k) = adjArr m c (ix2 (rowHi t r) k) := by
  show V m c main_arg1 (((cfg0.win 6).blk t).view.emb (ix2 r k)) = _
  rw [V_arg1]
  refine congrArg (adjArr m c) ?_
  funext d; apply Fin.ext
  have e := idx6 t
  match d with
  | ⟨0, _⟩ =>
    show cc0_transform_6 (grid0.coords t) (0 : Fin 2) * 200 + 1 * r.val = 400 * (t.val % 25) + 200 + r.val
    rw [e]; show (2 * (t.val % 25) + 1) * 200 + 1 * r.val = 400 * (t.val % 25) + 200 + r.val; omega
  | ⟨1, _⟩ =>
    show cc0_transform_6 (grid0.coords t) (1 : Fin 2) * 10000 + 1 * k.val = k.val
    rw [e]; show 0 * 10000 + 1 * k.val = k.val; omega

end Cert.KernelIdeal.Hand

end
-- ==== Proof.KI.Frame.lean ====
/-
  The frame: every weakly fair execution of @main terminates, nothing faulting, and the six argument arrays end as
  launched. Four of them are arrays input windows stage, which no write-back touches; the two bias vectors bypass the
  region; and the reshapes before the region write none of them.
-/
import proofs.«129092_g28501402976259_cont_9to1_647_12_alg».proof.Proof.KI.Launch
import proofs.«129092_g28501402976259_cont_9to1_647_12_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six argument arrays after any state of the run's post. -/
theorem kept_args (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_arg0 m c))),
   ((h c).1 5).trans (((dats m 0 c).arrAt_in 5 rfl _).trans ((A_eq m c 5).trans (V_arg1 m c))),
   ((h c).1 1).trans (((dats m 0 c).arrAt_in 1 rfl _).trans ((A_eq m c 1).trans (V_arg2 m c))),
   ((h c).2 main_arg3 (by decide)).trans (V_arg3 m c),
   ((h c).1 3).trans (((dats m 0 c).arrAt_in 3 rfl _).trans ((A_eq m c 3).trans (V_arg4 m c))),
   ((h c).2 main_arg5 (by decide)).trans (V_arg5 m c)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_args m r h c) (run_main m ρ)

end Cert.KernelIdeal.Hand

end
-- ==== Proof.Spec.lean ====
/-
  The two-layer dense graph convolution as ONE function of the argument arrays, entry by entry, over the extended reals:

      out = Adj · (relu (Adj · (x · W1 + b1)) · W2 + b2)

  with every product a plain finite sum over the contracted coordinate, the bias added to every row, and the
  rectifier the maximum with zero. Both programs are shown to compute this function; no property of the extended
  reals beyond the definitions is used, since both evaluate exactly these sums with exactly these terms.
-/
import Idealize.ShloMosaic.PureOps.Ideal
import Idealize.ShloMosaic.Lib.ValueIdx

noncomputable section

open scoped BigOperators

namespace Cert.Spec

open Idealize.ShloMosaic Idealize.ShloMosaic.ValueIdx

/-- An n × m array of extended reals, indexed as the programs index it. -/
abbrev Mat (n m : Nat) : Type := (⟨2, ![n, m]⟩ : Shape).Idx → EReal
/-- A vector of extended reals. -/
abbrev Row (n : Nat) : Type := (⟨1, ![n]⟩ : Shape).Idx → EReal

/-- The zero the rectifier compares with: the f32 word 0 at the ideal values. -/
def zero : EReal := Ideal.ofBits .f32 0x00000000#32

/-- A dense layer applied to a feature table given entry by entry: (h · w + b) at row r, column c. -/
def dense (h : Fin 10000 → Fin 128 → EReal) (w : Mat 128 128) (b : Row 128) (r : Fin 10000) (c : Fin 128) : EReal :=
  (∑ k : Fin 128, h r k * w (ix2 k c)) + b (ix1 c)

/-- The aggregation over all nodes: (adj · h) at row r, column c. -/
def agg (adj : Mat 10000 10000) (h : Fin 10000 → Fin 128 → EReal) (r : Fin 10000) (c : Fin 128) : EReal :=
  ∑ k : Fin 10000, adj (ix2 r k) * h k c

/-- The first layer's transformed features x · W1 + b1. -/
def feat1 (x : Mat 10000 128) (w1 : Mat 128 128) (b1 : Row 128) : Fin 10000 → Fin 128 → EReal :=
  dense (fun r k => x (ix2 r k)) w1 b1

/-- The hidden layer relu (adj · (x · W1 + b1)). -/
def hidden (adj : Mat 10000 10000) (x : Mat 10000 128) (w1 : Mat 128 128) (b1 : Row 128) : Fin 10000 → Fin 128 → EReal :=
  fun r c => max (agg adj (feat1 x w1 b1) r c) zero

/-- The second layer's transformed features hidden · W2 + b2. -/
def feat2 (adj : Mat 10000 10000) (x : Mat 10000 128) (w1 : Mat 128 128) (b1 : Row 128) (w2 : Mat 128 128) (b2 : Row 128) :
    Fin 10000 → Fin 128 → EReal :=
  dense (hidden adj x w1 b1) w2 b2

/-- The network's output adj · (hidden · W2 + b2), as an array. -/
def out (x : Mat 10000 128) (adj : Mat 10000 10000) (w1 : Mat 128 128) (b1 : Row 128) (w2 : Mat 128 128) (b2 : Row 128) :
    Mat 10000 128 :=
  fun j => agg adj (feat2 adj x w1 b1 w2 b2) (j 0) (j 1)

theorem out_ix2 (x : Mat 10000 128) (adj : Mat 10000 10000) (w1 : Mat 128 128) (b1 : Row 128) (w2 : Mat 128 128) (b2 : Row 128)
    (r : Fin 10000) (c : Fin 128) : out x adj w1 b1 w2 b2 (ix2 r c) = agg adj (feat2 adj x w1 b1 w2 b2) r c := rfl

end Cert.Spec

end
-- ==== Proof.KI.Payloads.lean ====
/-
  The kernel body's six stored values, each read at one entry over the extended reals: a matrix product into a
  zero accumulator is the plain sum over the contracted coordinate, the bias row is added to every row, and the
  rectifier is the maximum with zero.
-/
import proofs.«129092_g28501402976259_cont_9to1_647_12_alg».proof.Proof.Gen.KernelIdeal.Skeleton
import proofs.«129092_g28501402976259_cont_9to1_647_12_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## The two matrix products at an entry

For dimension numbers that contract the left operand's columns against the right operand's rows, the operand
indices at output entry (r, c) and contraction coordinate k are (r, k) and (k, c). Each axis is read off the
record separately; the sum over the one-axis contraction index is then the sum over its coordinate. -/

theorem mm128_lhs_0 (i : S10000x128.Idx) (q : Cert.KernelIdeal.dot_S10000x128_S128x128_S10000x128_1_0_0_1_n_n.contr.Idx) :
    (Cert.KernelIdeal.dot_S10000x128_S128x128_S10000x128_1_0_0_1_n_n.lhsIdx i q 0).val = (i 0).val := by
  unfold DotDims.lhsIdx
  rw [dif_neg (show ¬(0 : Fin S10000x128.rank) ∈ Cert.KernelIdeal.dot_S10000x128_S128x128_S10000x128_1_0_0_1_n_n.lhsBatch by decide), dif_pos (show (0 : Fin S10000x128.rank) ∈ Cert.KernelIdeal.dot_S10000x128_S128x128_S10000x128_1_0_0_1_n_n.lhsNonContracting by decide)]
  rfl
theorem mm128_lhs_1 (i : S10000x128.Idx) (q : Cert.KernelIdeal.dot_S10000x128_S128x128_S10000x128_1_0_0_1_n_n.contr.Idx) :
    (Cert.KernelIdeal.dot_S10000x128_S128x128_S10000x128_1_0_0_1_n_n.lhsIdx i q 1).val = (q ⟨0, by decide⟩).val :=
  Cert.KernelIdeal.dot_S10000x128_S128x128_S10000x128_1_0_0_1_n_n.lhsIdx_val_of_single rfl i q
theorem mm128_rhs_0 (i : S10000x128.Idx) (q : Cert.KernelIdeal.dot_S10000x128_S128x128_S10000x128_1_0_0_1_n_n.contr.Idx) :
    (Cert.KernelIdeal.dot_S10000x128_S128x128_S10000x128_1_0_0_1_n_n.rhsIdx i q 0).val = (q ⟨0, by decide⟩).val :=
  Cert.KernelIdeal.dot_S10000x128_S128x128_S10000x128_1_0_0_1_n_n.rhsIdx_val_of_single rfl i q
theorem mm128_rhs_1 (i : S10000x128.Idx) (q : Cert.KernelIdeal.dot_S10000x128_S128x128_S10000x128_1_0_0_1_n_n.contr.Idx) :
    (Cert.KernelIdeal.dot_S10000x128_S128x128_S10000x128_1_0_0_1_n_n.rhsIdx i q 1).val = (i 1).val := by
  unfold DotDims.rhsIdx
  rw [dif_neg (show ¬(1 : Fin S128x128.rank) ∈ Cert.KernelIdeal.dot_S10000x128_S128x128_S10000x128_1_0_0_1_n_n.rhsBatch by decide), dif_pos (show (1 : Fin S128x128.rank) ∈ Cert.KernelIdeal.dot_S10000x128_S128x128_S10000x128_1_0_0_1_n_n.rhsNonContracting by decide)]
  rfl

/-- The [10000,128] × [128,128] product into the zero accumulator, at row r and column c: the sum over the 128 shared coordinates. -/
theorem mm128_apply (x : FVec Ideal S10000x128 .f32) (w : FVec Ideal S128x128 .f32) (r : Fin 10000) (c : Fin 128) :
    matmul (F := Ideal) Cert.KernelIdeal.dot_S10000x128_S128x128_S10000x128_1_0_0_1_n_n none x w (constant (F := Ideal) S10000x128 .f32 0x00000000#32) (ix2 r c)
      = ∑ k : Fin 128, x (ix2 r k) * w (ix2 k c) := by
  simp only [matmul]
  rw [Ideal.matmul_constant_zero_apply, ← Equiv.sum_comp (contrEquiv1 Cert.KernelIdeal.dot_S10000x128_S128x128_S10000x128_1_0_0_1_n_n 128 rfl rfl).symm]
  refine Finset.sum_congr rfl fun k _ => ?_
  have hk := contrEquiv1_symm_val Cert.KernelIdeal.dot_S10000x128_S128x128_S10000x128_1_0_0_1_n_n 128 rfl rfl k
  have el : Cert.KernelIdeal.dot_S10000x128_S128x128_S10000x128_1_0_0_1_n_n.lhsIdx (ix2 r c) ((contrEquiv1 Cert.KernelIdeal.dot_S10000x128_S128x128_S10000x128_1_0_0_1_n_n 128 rfl rfl).symm k) = ix2 r k := funext fun a => Fin.ext (by
    match a with
    | ⟨0, _⟩ => exact mm128_lhs_0 _ _
    | ⟨1, _⟩ => exact (mm128_lhs_1 _ _).trans hk)
  have er : Cert.KernelIdeal.dot_S10000x128_S128x128_S10000x128_1_0_0_1_n_n.rhsIdx (ix2 r c) ((contrEquiv1 Cert.KernelIdeal.dot_S10000x128_S128x128_S10000x128_1_0_0_1_n_n 128 rfl rfl).symm k) = ix2 k c := funext fun a => Fin.ext (by
    match a with
    | ⟨0, _⟩ => exact (mm128_rhs_0 _ _).trans hk
    | ⟨1, _⟩ => exact mm128_rhs_1 _ _)
  rw [el, er]

theorem mmAdj_lhs_0 (i : S200x128.Idx) (q : Cert.KernelIdeal.dot_S200x10000_S10000x128_S200x128_1_0_0_1_n_n.contr.Idx) :
    (Cert.KernelIdeal.dot_S200x10000_S10000x128_S200x128_1_0_0_1_n_n.lhsIdx i q 0).val = (i 0).val := by
  unfold DotDims.lhsIdx
  rw [dif_neg (show ¬(0 : Fin S200x10000.rank) ∈ Cert.KernelIdeal.dot_S200x10000_S10000x128_S200x128_1_0_0_1_n_n.lhsBatch by decide), dif_pos (show (0 : Fin S200x10000.rank) ∈ Cert.KernelIdeal.dot_S200x10000_S10000x128_S200x128_1_0_0_1_n_n.lhsNonContracting by decide)]
  rfl
theorem mmAdj_lhs_1 (i : S200x128.Idx) (q : Cert.KernelIdeal.dot_S200x10000_S10000x128_S200x128_1_0_0_1_n_n.contr.Idx) :
    (Cert.KernelIdeal.dot_S200x10000_S10000x128_S200x128_1_0_0_1_n_n.lhsIdx i q 1).val = (q ⟨0, by decide⟩).val :=
  Cert.KernelIdeal.dot_S200x10000_S10000x128_S200x128_1_0_0_1_n_n.lhsIdx_val_of_single rfl i q
theorem mmAdj_rhs_0 (i : S200x128.Idx) (q : Cert.KernelIdeal.dot_S200x10000_S10000x128_S200x128_1_0_0_1_n_n.contr.Idx) :
    (Cert.KernelIdeal.dot_S200x10000_S10000x128_S200x128_1_0_0_1_n_n.rhsIdx i q 0).val = (q ⟨0, by decide⟩).val :=
  Cert.KernelIdeal.dot_S200x10000_S10000x128_S200x128_1_0_0_1_n_n.rhsIdx_val_of_single rfl i q
theorem mmAdj_rhs_1 (i : S200x128.Idx) (q : Cert.KernelIdeal.dot_S200x10000_S10000x128_S200x128_1_0_0_1_n_n.contr.Idx) :
    (Cert.KernelIdeal.dot_S200x10000_S10000x128_S200x128_1_0_0_1_n_n.rhsIdx i q 1).val = (i 1).val := by
  unfold DotDims.rhsIdx
  rw [dif_neg (show ¬(1 : Fin S10000x128.rank) ∈ Cert.KernelIdeal.dot_S200x10000_S10000x128_S200x128_1_0_0_1_n_n.rhsBatch by decide), dif_pos (show (1 : Fin S10000x128.rank) ∈ Cert.KernelIdeal.dot_S200x10000_S10000x128_S200x128_1_0_0_1_n_n.rhsNonContracting by decide)]
  rfl

/-- The [200,10000] × [10000,128] product into the zero accumulator, at row r and column c: the sum over all 10000 nodes. -/
theorem mmAdj_apply (x : FVec Ideal S200x10000 .f32) (w : FVec Ideal S10000x128 .f32) (r : Fin 200) (c : Fin 128) :
    matmul (F := Ideal) Cert.KernelIdeal.dot_S200x10000_S10000x128_S200x128_1_0_0_1_n_n none x w (constant (F := Ideal) S200x128 .f32 0x00000000#32) (ix2 r c)
      = ∑ k : Fin 10000, x (ix2 r k) * w (ix2 k c) := by
  simp only [matmul]
  rw [Ideal.matmul_constant_zero_apply, ← Equiv.sum_comp (contrEquiv1 Cert.KernelIdeal.dot_S200x10000_S10000x128_S200x128_1_0_0_1_n_n 10000 rfl rfl).symm]
  refine Finset.sum_congr rfl fun k _ => ?_
  have hk := contrEquiv1_symm_val Cert.KernelIdeal.dot_S200x10000_S10000x128_S200x128_1_0_0_1_n_n 10000 rfl rfl k
  have el : Cert.KernelIdeal.dot_S200x10000_S10000x128_S200x128_1_0_0_1_n_n.lhsIdx (ix2 r c) ((contrEquiv1 Cert.KernelIdeal.dot_S200x10000_S10000x128_S200x128_1_0_0_1_n_n 10000 rfl rfl).symm k) = ix2 r k := funext fun a => Fin.ext (by
    match a with
    | ⟨0, _⟩ => exact mmAdj_lhs_0 _ _
    | ⟨1, _⟩ => exact (mmAdj_lhs_1 _ _).trans hk)
  have er : Cert.KernelIdeal.dot_S200x10000_S10000x128_S200x128_1_0_0_1_n_n.rhsIdx (ix2 r c) ((contrEquiv1 Cert.KernelIdeal.dot_S200x10000_S10000x128_S200x128_1_0_0_1_n_n 10000 rfl rfl).symm k) = ix2 k c := funext fun a => Fin.ext (by
    match a with
    | ⟨0, _⟩ => exact (mmAdj_rhs_0 _ _).trans hk
    | ⟨1, _⟩ => exact mmAdj_rhs_1 _ _)
  rw [el, er]

/-! ## The six stored values -/

/-- The bias row, cast to its own shape and broadcast over the 10000 rows, reads the bias at column c on every row. -/
theorem biasRow_apply (b : Vec Ideal S1x128 .f32) (r : Fin 10000) (c : Fin 128) :
    broadcastTo S10000x128 (shapeCast S1x128 b shapeCasts_S1x128_S1x128) broadcasts_S1x128_S10000x128 (ix2 r c)
      = b (ix2 (0 : Fin 1) c) := by
  rw [shapeCast_self]
  exact broadcastTo_1b_ab_apply b broadcasts_S1x128_S10000x128 r c

/-- The first layer's features as stored: (x · w + b) at row r, column c. -/
theorem pay1_apply (x : Vec Ideal S10000x128 .f32) (w : Vec Ideal S128x128 .f32) (b : Vec Ideal S1x128 .f32)
    (r : Fin 10000) (c : Fin 128) :
    k0_pay1 (F := Ideal) x w b (ix2 r c) = (∑ k : Fin 128, x (ix2 r k) * w (ix2 k c)) + b (ix2 (0 : Fin 1) c) := by
  unfold k0_pay1
  rw [shapeCast_self, addf_apply, mm128_apply, biasRow_apply]

/-- The second layer's features as stored: the same function. -/
theorem pay2_apply (x : Vec Ideal S10000x128 .f32) (w : Vec Ideal S128x128 .f32) (b : Vec Ideal S1x128 .f32)
    (r : Fin 10000) (c : Fin 128) :
    k0_pay2 (F := Ideal) x w b (ix2 r c) = (∑ k : Fin 128, x (ix2 r k) * w (ix2 k c)) + b (ix2 (0 : Fin 1) c) := by
  unfold k0_pay2
  rw [shapeCast_self, addf_apply, mm128_apply, biasRow_apply]

/-- A half row block of the adjacency times the features: the sum over all nodes. -/
theorem pay3_apply (a : Vec Ideal S200x10000 .f32) (h : Vec Ideal S10000x128 .f32) (r : Fin 200) (c : Fin 128) :
    k0_pay3 (F := Ideal) a h (ix2 r c) = ∑ k : Fin 10000, a (ix2 r k) * h (ix2 k c) := by
  unfold k0_pay3
  exact mmAdj_apply a h r c

theorem pay4_apply (a : Vec Ideal S200x10000 .f32) (h : Vec Ideal S10000x128 .f32) (r : Fin 200) (c : Fin 128) :
    k0_pay4 (F := Ideal) a h (ix2 r c) = ∑ k : Fin 10000, a (ix2 r k) * h (ix2 k c) := by
  unfold k0_pay4
  exact mmAdj_apply a h r c

/-- The same product rectified. -/
theorem pay5_apply (a : Vec Ideal S200x10000 .f32) (h : Vec Ideal S10000x128 .f32) (r : Fin 200) (c : Fin 128) :
    k0_pay5 (F := Ideal) a h (ix2 r c) = max (∑ k : Fin 10000, a (ix2 r k) * h (ix2 k c)) Cert.Spec.zero := by
  unfold k0_pay5
  rw [shapeCast_self, maximumf_apply, pay3_apply, broadcast_apply]
  rfl

theorem pay6_apply (a : Vec Ideal S200x10000 .f32) (h : Vec Ideal S10000x128 .f32) (r : Fin 200) (c : Fin 128) :
    k0_pay6 (F := Ideal) a h (ix2 r c) = max (∑ k : Fin 10000, a (ix2 r k) * h (ix2 k c)) Cert.Spec.zero := by
  unfold k0_pay6
  rw [shapeCast_self, maximumf_apply, pay4_apply, broadcast_apply]
  rfl

end Cert.KernelIdeal.Pay

end
-- ==== Proof.KI.AggValue.lean ====
/-
  The finished aggregate and the two feature tables, entry by entry over the extended reals, are the
  specification's: the first layer's features x · W1 + b1; the aggregate's row r, which lies in exactly one of the 50
  slabs, the rectified sum over all nodes of the adjacency's row r against those features; and the second layer's
  features aggregate · W2 + b2.
-/
import proofs.«129092_g28501402976259_cont_9to1_647_12_alg».proof.Proof.KI.Blocks
import proofs.«129092_g28501402976259_cont_9to1_647_12_alg».proof.Proof.KI.Payloads
import proofs.«129092_g28501402976259_cont_9to1_647_12_alg».proof.Proof.KI.AggCover
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-! ## The specification's functions at an entry -/

theorem spec_feat1_eq (x : Cert.Spec.Mat 10000 128) (w1 : Cert.Spec.Mat 128 128) (b1 : Cert.Spec.Row 128)
    (l : Fin 10000) (j : Fin 128) :
    Cert.Spec.feat1 x w1 b1 l j = (∑ k : Fin 128, x (ix2 l k) * w1 (ix2 k j)) + b1 (ix1 j) := rfl

theorem spec_hidden_eq (adj : Cert.Spec.Mat 10000 10000) (x : Cert.Spec.Mat 10000 128) (w1 : Cert.Spec.Mat 128 128)
    (b1 : Cert.Spec.Row 128) (r : Fin 10000) (j : Fin 128) :
    Cert.Spec.hidden adj x w1 b1 r j
      = max (∑ k : Fin 10000, adj (ix2 r k) * Cert.Spec.feat1 x w1 b1 k j) Cert.Spec.zero := rfl

theorem spec_feat2_eq (adj : Cert.Spec.Mat 10000 10000) (x : Cert.Spec.Mat 10000 128) (w1 : Cert.Spec.Mat 128 128)
    (b1 : Cert.Spec.Row 128) (w2 : Cert.Spec.Mat 128 128) (b2 : Cert.Spec.Row 128) (l : Fin 10000) (j : Fin 128) :
    Cert.Spec.feat2 adj x w1 b1 w2 b2 l j
      = (∑ k : Fin 128, Cert.Spec.hidden adj x w1 b1 l k * w2 (ix2 k j)) + b2 (ix1 j) := rfl

/-! ## The first layer's features -/

/-- x · W1 + b1 over the blocks of any point is the specification's first feature table: the three blocks are the
    launched arrays. -/
theorem pay1_blocks (c : Dev nD) (t : Fin cfg0.N) (l : Fin 10000) (j : Fin 128) :
    k0_pay1 (F := Ideal) (xBlk m c t) (w1Blk m c t) (b1Blk m c t) (ix2 l j)
      = Cert.Spec.feat1 (xArr m c) (w1Arr m c) (b1Arr m c) l j := by
  rw [Pay.pay1_apply, b1Blk_apply, spec_feat1_eq]
  refine congrArg (fun s => s + b1Arr m c (ix1 j)) ?_
  exact Finset.sum_congr rfl fun k _ => by rw [xBlk_apply, w1Blk_apply]

/-- The first layer's features are the specification's. -/
theorem feat1_apply (c : Dev nD) (l : Fin 10000) (j : Fin 128) :
    feat1 (F := Ideal) m c (ix2 l j) = Cert.Spec.feat1 (xArr m c) (w1Arr m c) (b1Arr m c) l j := by
  unfold feat1
  exact pay1_blocks m c _ l j

/-! ## The slabs' offsets and entries -/

/-- The lower slab of a point starts at row 400 · (t mod 25), the upper 200 rows further; both at column 0. -/
theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25) + 200, 0] :=
  (by decide +kernel : ∀ t : Fin grid0.N, k0_off2 (grid0.coords t) = ![400 * (t.val % 25) + 200, 0])

/-- Row r' of the lower slab of point t is the hidden layer's row 400 · (t mod 25) + r'. -/
theorem lo_entry (c : Dev nD) (t : Fin cfg0.N) (r' : Fin 200) (j : Fin 128) :
    k0_pay5 (F := Ideal) (adjLo m c t) (feat1 m c) (ix2 r' j)
      = Cert.Spec.hidden (adjArr m c) (xArr m c) (w1Arr m c) (b1Arr m c) (rowLo t r') j := by
  rw [Pay.pay5_apply, spec_hidden_eq]
  refine congrArg (fun s => max s Cert.Spec.zero) ?_
  exact Finset.sum_congr rfl fun k _ => by rw [adjLo_apply, feat1_apply]

/-- Row r' of the upper slab of point t is the hidden layer's row 400 · (t mod 25) + 200 + r'. -/
theorem hi_entry (c : Dev nD) (t : Fin cfg0.N) (r' : Fin 200) (j : Fin 128) :
    k0_pay6 (F := Ideal) (adjHi m c t) (feat1 m c) (ix2 r' j)
      = Cert.Spec.hidden (adjArr m c) (xArr m c) (w1Arr m c) (b1Arr m c) (rowHi t r') j := by
  rw [Pay.pay6_apply, spec_hidden_eq]
  refine congrArg (fun s => max s Cert.Spec.zero) ?_
  exact Finset.sum_congr rfl fun k _ => by rw [adjHi_apply, feat1_apply]

/-! ## Reading through one point's two slabs -/

/-- Over any earlier stores, a row of row block i = t mod 25 reads the hidden layer's row from one of point t's two
    slabs; every other row reads what the earlier stores left. -/
theorem read_slabs (c : Dev nD) (t : Fin cfg0.N) (h : t.val < 25) (g : sc1.view.ty.Contents (Elt Ideal))
    (L : List (View.Piece (Elt Ideal) S10000x128 .f32)) (r : Fin 10000) (j : Fin 128) (i : Nat) (hi : t.val % 25 = i) :
    sc1.view.read (Elt Ideal) (sc1.view.writes (Elt Ideal) g (aggSlabs m c t h ++ L)) (ix2 r j)
      = if 400 * i ≤ r.val ∧ r.val < 400 * i + 400 then
          Cert.Spec.hidden (adjArr m c) (xArr m c) (w1Arr m c) (b1Arr m c) r j
        else sc1.view.read (Elt Ideal) (sc1.view.writes (Elt Ideal) g L) (ix2 r j) := by
  subst hi
  unfold aggSlabs slabs
  rw [List.cons_append, List.cons_append, List.nil_append]
  by_cases hu : 400 * (t.val % 25) + 200 ≤ r.val ∧ r.val < 400 * (t.val % 25) + 200 + 200
  · rw [if_pos (by omega)]
    refine (View.read_writes_cons_rows_of_mem sc1.view g _ _ _ (ix2 r j)
      (ix2 (⟨r.val - (400 * (t.val % 25) + 200), by omega⟩ : Fin 200) j) (off2_eq t)
      (by show r.val = 400 * (t.val % 25) + 200 + (r.val - (400 * (t.val % 25) + 200)); omega) rfl).trans ?_
    rw [hi_entry]
    exact congrArg (fun q => Cert.Spec.hidden (adjArr m c) (xArr m c) (w1Arr m c) (b1Arr m c) q j)
      (Fin.ext (by show 400 * (t.val % 25) + 200 + (r.val - (400 * (t.val % 25) + 200)) = r.val; omega))
  · rw [View.read_writes_cons_rows_of_not_mem sc1.view g _ _ _ (ix2 r j) (off2_eq t) (W := 200) rfl
      (by show r.val < 400 * (t.val % 25) + 200 ∨ 400 * (t.val % 25) + 200 + 200 ≤ r.val; omega)]
    by_cases hl : 400 * (t.val % 25) ≤ r.val ∧ r.val < 400 * (t.val % 25) + 200
    · rw [if_pos (by omega)]
      refine (View.read_writes_cons_rows_of_mem sc1.view g _ _ _ (ix2 r j)
        (ix2 (⟨r.val - 400 * (t.val % 25), by omega⟩ : Fin 200) j) (off1_eq t)
        (by show r.val = 400 * (t.val % 25) + (r.val - 400 * (t.val % 25)); omega) rfl).trans ?_
      rw [lo_entry]
      exact congrArg (fun q => Cert.Spec.hidden (adjArr m c) (xArr m c) (w1Arr m c) (b1Arr m c) q j)
        (Fin.ext (by show 400 * (t.val % 25) + (r.val - 400 * (t.val % 25)) = r.val; omega))
    · rw [if_neg (by omega)]
      exact View.read_writes_cons_rows_of_not_mem sc1.view g _ _ _ (ix2 r j) (off1_eq t) (W := 200) rfl
        (by show r.val < 400 * (t.val % 25) ∨ 400 * (t.val % 25) + 200 ≤ r.val; omega)

/-! ## All 25 points -/

theorem aggPieces_zero (c : Dev nD) (h : 0 < 25) :
    aggPieces m c 0 h = aggSlabs m c (pt 0 (by decide)) h := rfl
theorem aggPieces_succ (c : Dev nD) (n : Nat) (h : n + 1 < 25) :
    aggPieces m c (n + 1) h = aggSlabs m c (pt (n + 1) (by omega)) h ++ aggPieces m c n (by omega) := rfl

/-- After the slabs of points 0 … n, over any earlier contents, every row below 400 · (n + 1) is the hidden layer's:
    rows of row block n come from point n's slabs, lower rows were written before and not overwritten. -/
theorem agg_rows (c : Dev nD) (g : sc1.view.ty.Contents (Elt Ideal)) :
    ∀ (n : Nat) (hn : n < 25) (r : Fin 10000) (j : Fin 128), r.val < 400 * (n + 1) →
      sc1.view.read (Elt Ideal) (sc1.view.writes (Elt Ideal) g (aggPieces m c n hn)) (ix2 r j)
        = Cert.Spec.hidden (adjArr m c) (xArr m c) (w1Arr m c) (b1Arr m c) r j := by
  intro n
  induction n with
  | zero =>
    intro hn r j hr
    rw [aggPieces_zero, ← List.append_nil (aggSlabs m c (pt 0 (by decide)) hn),
      read_slabs m c (pt 0 (by decide)) hn g [] r j 0 rfl]
    exact if_pos (by omega)
  | succ n ih =>
    intro hn r j hr
    rw [aggPieces_succ, read_slabs m c (pt (n + 1) (by omega)) hn g _ r j (n + 1) (Nat.mod_eq_of_lt hn)]
    by_cases hc : 400 * (n + 1) ≤ r.val ∧ r.val < 400 * (n + 1) + 400
    · exact if_pos hc
    · rw [if_neg hc]
      exact ih (by omega) r j (by omega)

/-- The finished aggregate is the specification's hidden layer. -/
theorem aggFull_apply (c : Dev nD) (r : Fin 10000) (j : Fin 128) :
    aggFull (F := Ideal) m c (ix2 r j) = Cert.Spec.hidden (adjArr m c) (xArr m c) (w1Arr m c) (b1Arr m c) r j := by
  unfold aggFull
  exact agg_rows m c _ 24 (by decide) r j (by have := r.isLt; omega)

/-! ## The second layer's features -/

/-- aggregate · W2 + b2 over the blocks of any point is the specification's second feature table. -/
theorem pay2_blocks (c : Dev nD) (t : Fin cfg0.N) (l : Fin 10000) (j : Fin 128) :
    k0_pay2 (F := Ideal) (aggFull m c) (w2Blk m c t) (b2Blk m c t) (ix2 l j)
      = Cert.Spec.feat2 (adjArr m c) (xArr m c) (w1Arr m c) (b1Arr m c) (w2Arr m c) (b2Arr m c) l j := by
  rw [Pay.pay2_apply, b2Blk_apply, spec_feat2_eq]
  refine congrArg (fun s => s + b2Arr m c (ix1 j)) ?_
  exact Finset.sum_congr rfl fun k _ => by rw [aggFull_apply, w2Blk_apply]

/-- The second layer's features are the specification's. -/
theorem feat2_apply (c : Dev nD) (l : Fin 10000) (j : Fin 128) :
    feat2 (F := Ideal) m c (ix2 l j)
      = Cert.Spec.feat2 (adjArr m c) (xArr m c) (w1Arr m c) (b1Arr m c) (w2Arr m c) (b2Arr m c) l j := by
  unfold feat2
  exact pay2_blocks m c _ l j

end Cert.KernelIdeal.Hand

end
-- ==== Proof.KI.Value.lean ====
/-
  The result array after the run is the specification's output. Point t of the second phase writes back block
  t mod 25 of the result: rows 400·(t mod 25) … +399, its upper half the lower half block of the adjacency against the
  second layer's features, its lower half the upper half block against them — in both halves row r of the block is the
  sum over all nodes of the adjacency's row 400·(t mod 25) + r against the features, which is the specification's
  output row. The 25 blocks tile the array.
-/
import proofs.«129092_g28501402976259_cont_9to1_647_12_alg».proof.Proof.KI.Launch
import proofs.«129092_g28501402976259_cont_9to1_647_12_alg».proof.Proof.KI.AggValue
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The specification's output of the launched arrays, at the result array's type. -/
abbrev specOut (c : Dev nD) : Vec Ideal S10000x128 .f32 :=
  Cert.Spec.out (xArr m c) (adjArr m c) (w1Arr m c) (b1Arr m c) (w2Arr m c) (b2Arr m c)

/-- Row r of the lower or upper half block against the second layer's features is the output's row. -/
theorem lo_row (c : Dev nD) (t : Fin cfg0.N) (r : Fin 200) (j : Fin 128) :
    k0_pay3 (F := Ideal) (adjLo m c t) (feat2 m c) (ix2 r j) = specOut m c (ix2 (rowLo t r) j) := by
  refine (Cert.KernelIdeal.Pay.pay3_apply _ _ r j).trans ?_
  show (∑ k : Fin 10000, adjLo m c t (ix2 r k) * feat2 m c (ix2 k j))
    = ∑ k : Fin 10000, adjArr m c (ix2 (rowLo t r) k)
        * Cert.Spec.feat2 (adjArr m c) (xArr m c) (w1Arr m c) (b1Arr m c) (w2Arr m c) (b2Arr m c) k j
  exact Finset.sum_congr rfl fun k _ => by rw [adjLo_apply, feat2_apply]

theorem hi_row (c : Dev nD) (t : Fin cfg0.N) (r : Fin 200) (j : Fin 128) :
    k0_pay4 (F := Ideal) (adjHi m c t) (feat2 m c) (ix2 r j) = specOut m c (ix2 (rowHi t r) j) := by
  refine (Cert.KernelIdeal.Pay.pay4_apply _ _ r j).trans ?_
  show (∑ k : Fin 10000, adjHi m c t (ix2 r k) * feat2 m c (ix2 k j))
    = ∑ k : Fin 10000, adjArr m c (ix2 (rowHi t r) k)
        * Cert.Spec.feat2 (adjArr m c) (xArr m c) (w1Arr m c) (b1Arr m c) (w2Arr m c) (b2Arr m c) k j
  exact Finset.sum_congr rfl fun k _ => by rw [adjHi_apply, feat2_apply]

/-- The result's block as point t leaves it, at row r of 400 and column j. -/
theorem outBlock_apply (c : Dev nD) (t : Fin cfg0.N) (r : Fin 400) (j : Fin 128) :
    outBlock (F := Ideal) m c t (ix2 r j) = specOut m c (ix2 ⟨400 * (t.val % 25) + r.val, by have := r.isLt; omega⟩ j) := by
  unfold outBlock halves
  by_cases hr : r.val < 200
  · rw [View.read_writes_cons_rows_of_not_mem VO7 VO7.junk inb_S400x128_S200x128_200_0 _ _ (ix2 r j) (o := 200) (W := 200) rfl rfl (Or.inl hr)]
    refine (View.read_writes_cons_rows_of_mem VO7 VO7.junk inb_S400x128_S200x128_0_0 _ _ (ix2 r j) (ix2 ⟨r.val, hr⟩ j) (o := 0) rfl (Nat.zero_add _).symm rfl).trans ?_
    refine (lo_row m c t ⟨r.val, hr⟩ j).trans ?_
    exact congrArg (fun q => specOut m c (ix2 q j)) (Fin.ext rfl)
  · have hr' : r.val - 200 < 200 := by have := r.isLt; omega
    refine (View.read_writes_cons_rows_of_mem VO7 VO7.junk inb_S400x128_S200x128_200_0 _ _ (ix2 r j) (ix2 ⟨r.val - 200, hr'⟩ j) (o := 200) rfl (by show r.val = 200 + (r.val - 200); omega) rfl).trans ?_
    refine (hi_row m c t ⟨r.val - 200, hr'⟩ j).trans ?_
    exact congrArg (fun q => specOut m c (ix2 q j)) (Fin.ext (by show 400 * (t.val % 25) + 200 + (r.val - 200) = 400 * (t.val % 25) + r.val; omega))

/-- The result window's block index at the points of the second phase, decided over the grid. -/
theorem idx7 : ∀ t : Fin cfg0.N, 25 ≤ t.val → win0_7.index t (0 : Fin 2) = t.val - 25 ∧ win0_7.index t (1 : Fin 2) = 0 :=
  (by decide +kernel : ∀ t : Fin grid0.N, 25 ≤ t.val → win0_7.index t (0 : Fin 2) = t.val - 25 ∧ win0_7.index t (1 : Fin 2) = 0)

/-- What point t writes back is block t of the specification's output. -/
theorem flushed7_eq (c : Dev nD) (t : Fin cfg0.N) (h25 : 25 ≤ t.val) :
    (dats m 0 c).flushed 7 t = ((cfg0.win 7).blk t).view.read (Elt Ideal) (specOut m c) := by
  show (cfg0.win 7).cut (grid0.coords t) ((dats m 0 c).after 7 t) = _
  rw [after7]
  obtain ⟨e0, e1⟩ := idx7 t h25
  have hN : t.val < 50 := lt_of_lt_of_eq t.isLt N50
  funext y
  obtain ⟨r, j, rfl⟩ : ∃ (r : Fin 400) (j : Fin 128), y = ix2 r j := ⟨y 0, y 1, eq_ix2 y⟩
  show outBlock m c t (ix2 r j) = specOut m c (((cfg0.win 7).blk t).view.emb (ix2 r j))
  rw [outBlock_apply]
  refine congrArg (specOut m c) ?_
  funext a; apply Fin.ext
  match a with
  | ⟨0, _⟩ => show 400 * (t.val % 25) + r.val = win0_7.index t (0 : Fin 2) * 400 + 1 * r.val; have := r.isLt; omega
  | ⟨1, _⟩ => show j.val = win0_7.index t (1 : Fin 2) * 128 + 1 * j.val; omega

/-- An index of the result array is in point t's block iff each coordinate is in the block's range. -/
theorem mem_blk7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v2).slice (win0_7.rect t)).set ↔ _
  rw [View.set_slice_whole, Rect.mem_set_unit]
  exact Iff.rfl

/-- Every row of the result is in the block some point of the second phase writes back. -/
theorem cover7 (i : S10000x128.Idx) : ∃ t : Fin cfg0.N, (cfg0.win 7).flush t = true ∧ i ∈ ((cfg0.win 7).blk t).view.set := by
  have hi0 : (i 0).val < 10000 := (i 0).isLt
  have hi1 : (i 1).val < 128 := (i 1).isLt
  refine ⟨⟨25 + (i 0).val / 400, by rw [N50]; omega⟩, ?_, ?_⟩
  · rw [flush7]; exact decide_eq_true (by show 25 ≤ 25 + (i 0).val / 400; omega)
  · obtain ⟨e0, e1⟩ := idx7 ⟨25 + (i 0).val / 400, by rw [N50]; omega⟩ (by show 25 ≤ 25 + (i 0).val / 400; omega)
    rw [mem_blk7]
    intro a
    match a with
    | ⟨0, _⟩ =>
      show win0_7.index _ (0 : Fin 2) * 400 ≤ (i 0).val ∧ (i 0).val < win0_7.index _ (0 : Fin 2) * 400 + 400
      rw [e0]; show (25 + (i 0).val / 400 - 25) * 400 ≤ (i 0).val ∧ (i 0).val < (25 + (i 0).val / 400 - 25) * 400 + 400; omega
    | ⟨1, _⟩ =>
      show win0_7.index _ (1 : Fin 2) * 128 ≤ (i 1).val ∧ (i 1).val < win0_7.index _ (1 : Fin 2) * 128 + 128
      rw [e1]; omega

/-- THE RESULT ARRAY after the run is the specification's output of the launched arrays. -/
theorem out_final (c : Dev nD) : (dats m 0 c).arrAt 7 cfg0.N = specOut m c :=
  (dats m 0 c).arrAt_eq_of_cover 7 (specOut m c)
    (fun t hf => flushed7_eq m c t (by rw [flush7] at hf; exact of_decide_eq_true hf)) (cover7)

end Cert.KernelIdeal.Hand

end
-- ==== Proof.RefValue.lean ====
/-
  The reference program's result, read one operation at a time, is the specification's function of the arguments.
-/
import proofs.«129092_g28501402976259_cont_9to1_647_12_alg».proof.Proof.Gen.ReferenceIdeal.Read
import proofs.«129092_g28501402976259_cont_9to1_647_12_alg».proof.Proof.Spec

noncomputable section

open scoped BigOperators

namespace Cert.ReferenceIdeal.RefValue

open Cert.ReferenceIdeal Cert.ReferenceIdeal.Read Idealize.ShloMosaic Idealize.ShloMosaic.ValueIdx

/-- The left index of a row-by-column product at row r, contracted coordinate k. -/
theorem lidx_v0_ix2 (r : Fin 10000) (c : Fin 128) (k : Fin 128) : lidx_main_v0 (ix2 r c) k = ix2 r k :=
  funext fun a => Fin.ext (by match a with | ⟨0, _⟩ => rfl | ⟨1, _⟩ => rfl)
theorem ridx_v0_ix2 (r : Fin 10000) (c : Fin 128) (k : Fin 128) : ridx_main_v0 (ix2 r c) k = ix2 k c :=
  funext fun a => Fin.ext (by match a with | ⟨0, _⟩ => rfl | ⟨1, _⟩ => rfl)
theorem lidx_v4_ix2 (r : Fin 10000) (c : Fin 128) (k : Fin 10000) : lidx_main_v4 (ix2 r c) k = ix2 r k :=
  funext fun a => Fin.ext (by match a with | ⟨0, _⟩ => rfl | ⟨1, _⟩ => rfl)
theorem ridx_v4_ix2 (r : Fin 10000) (c : Fin 128) (k : Fin 10000) : ridx_main_v4 (ix2 r c) k = ix2 k c :=
  funext fun a => Fin.ext (by match a with | ⟨0, _⟩ => rfl | ⟨1, _⟩ => rfl)
theorem lidx_v6_ix2 (r : Fin 10000) (c : Fin 128) (k : Fin 128) : lidx_main_v6 (ix2 r c) k = ix2 r k :=
  funext fun a => Fin.ext (by match a with | ⟨0, _⟩ => rfl | ⟨1, _⟩ => rfl)
theorem ridx_v6_ix2 (r : Fin 10000) (c : Fin 128) (k : Fin 128) : ridx_main_v6 (ix2 r c) k = ix2 k c :=
  funext fun a => Fin.ext (by match a with | ⟨0, _⟩ => rfl | ⟨1, _⟩ => rfl)
theorem lidx_v10_ix2 (r : Fin 10000) (c : Fin 128) (k : Fin 10000) : lidx_main_v10 (ix2 r c) k = ix2 r k :=
  funext fun a => Fin.ext (by match a with | ⟨0, _⟩ => rfl | ⟨1, _⟩ => rfl)
theorem ridx_v10_ix2 (r : Fin 10000) (c : Fin 128) (k : Fin 10000) : ridx_main_v10 (ix2 r c) k = ix2 k c :=
  funext fun a => Fin.ext (by match a with | ⟨0, _⟩ => rfl | ⟨1, _⟩ => rfl)
/-- The bias row, broadcast to every row, is read at the column. -/
theorem idx_v1_v2_ix2 (r : Fin 10000) (c : Fin 128) : idx_main_v1 (idx_main_v2 (ix2 r c)) = ix1 c :=
  funext fun a => Fin.ext (by match a with | ⟨0, _⟩ => rfl)
theorem idx_v7_v8_ix2 (r : Fin 10000) (c : Fin 128) : idx_main_v7 (idx_main_v8 (ix2 r c)) = ix1 c :=
  funext fun a => Fin.ext (by match a with | ⟨0, _⟩ => rfl)

/-- The first layer's transformed features, entry by entry. -/
theorem v3_ix2 (x0 : (⟨S10000x128, .f32⟩ : BufTy).Contents (Elt Ideal))
    (x2 : (⟨S128x128, .f32⟩ : BufTy).Contents (Elt Ideal)) (x3 : (⟨S128, .f32⟩ : BufTy).Contents (Elt Ideal))
    (r : Fin 10000) (c : Fin 128) :
    val_main_v3 (F := Ideal) x0 x2 x3 (ix2 r c) = Cert.Spec.feat1 x0 x2 x3 r c := by
  rw [val_main_v3_apply, val_main_v0_apply, val_main_v2_apply, val_main_v1_apply, idx_v1_v2_ix2, Ideal.addf_def]
  unfold Cert.Spec.feat1 Cert.Spec.dense
  refine congrArg (· + x3 (ix1 c)) ?_
  refine Finset.sum_congr rfl fun k _ => ?_
  rw [lidx_v0_ix2, ridx_v0_ix2]

/-- The hidden layer, entry by entry. -/
theorem v5_ix2 (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (r : Fin 10000) (c : Fin 128) :
    val_main_v5 (F := Ideal) x0 x1 x2 x3 (ix2 r c) = Cert.Spec.hidden x1 x0 x2 x3 r c := by
  rw [val_main_v5_apply, val_main_v4_apply, val_main_call0_v0_apply, val_main_call0_cst_apply, Ideal.maximumf_def,
    Ideal.ofBits_def]
  unfold Cert.Spec.hidden Cert.Spec.agg Cert.Spec.zero
  refine congrArg (max · (Ideal.ofBits .f32 0x00000000#32)) ?_
  refine Finset.sum_congr rfl fun k _ => ?_
  rw [lidx_v4_ix2, ridx_v4_ix2, v3_ix2]

/-- The second layer's transformed features, entry by entry. -/
theorem v9_ix2 (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 10000) (c : Fin 128) :
    val_main_v9 (F := Ideal) x0 x1 x2 x3 x4 x5 (ix2 r c) = Cert.Spec.feat2 x1 x0 x2 x3 x4 x5 r c := by
  rw [val_main_v9_apply, val_main_v6_apply, val_main_v8_apply, val_main_v7_apply, idx_v7_v8_ix2, Ideal.addf_def]
  unfold Cert.Spec.feat2 Cert.Spec.dense
  refine congrArg (· + x5 (ix1 c)) ?_
  refine Finset.sum_congr rfl fun k _ => ?_
  rw [lidx_v6_ix2, ridx_v6_ix2, v5_ix2]

/-- The reference's last stage — its whole composed term — is the specification, entry by entry. -/
theorem ref_is_spec (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5 = Cert.Spec.out x0 x1 x2 x3 x4 x5 := by
  funext i
  obtain ⟨r, c, rfl⟩ : ∃ (r : Fin 10000) (c : Fin 128), i = ix2 r c := ⟨i 0, i 1, eq_ix2 i⟩
  rw [val_main_v10_apply, Cert.Spec.out_ix2]
  unfold Cert.Spec.agg
  refine Finset.sum_congr rfl fun k _ => ?_
  rw [lidx_v10_ix2, ridx_v10_ix2, v9_ix2]

end Cert.ReferenceIdeal.RefValue

end
-- ==== Proof.lean ====
/-
  The certificate of a two-layer dense graph convolution, out = Adj · (relu (Adj · (x · W1 + b1)) · W2 + b2), computed
  by one kernel over a grid of 2 × 25 points against the plain composition of matrix products.

  The kernel streams the adjacency twice in row blocks of 400 rows, each block as two half blocks of 200 rows read
  through two windows of the same array. In the first phase it keeps, in a scratch array, the first layer's features
  (stored at the first point) and fills a second scratch array, the aggregate, with the rectified products, two slabs
  of 200 rows per point; in the second phase it replaces the features by the second layer's (computed from the
  finished aggregate at the phase's first point) and writes one block of the result per point. Over the extended reals
  every product is the plain sum over the contracted coordinate on both sides, with the same terms, so the two
  programs compute one function (Proof/Spec.lean) and no property of the inputs is needed.

  The three frames: the kernel's two (at the word level and over the extended reals, one text for every float
  instance) by the body's four runs and the region's launch with the adjacency's share dealt to its two windows; the
  reference's from its run. The idealization rewrote nothing, so there is nothing to preserve beyond the text.
-/
import proofs.«129092_g28501402976259_cont_9to1_647_12_alg».proof.Defs
import proofs.«129092_g28501402976259_cont_9to1_647_12_alg».proof.Proof.Gen.Kernel
import proofs.«129092_g28501402976259_cont_9to1_647_12_alg».proof.Proof.Gen.KernelIdeal
import proofs.«129092_g28501402976259_cont_9to1_647_12_alg».proof.Proof.Gen.ReferenceIdeal
import proofs.«129092_g28501402976259_cont_9to1_647_12_alg».proof.Proof.Gen.Pre_finite_inputs
import proofs.«129092_g28501402976259_cont_9to1_647_12_alg».proof.Proof.Gen.ReferenceIdeal.Run
import proofs.«129092_g28501402976259_cont_9to1_647_12_alg».proof.Proof.Gen.ReferenceIdeal.Read
import proofs.«129092_g28501402976259_cont_9to1_647_12_alg».proof.Proof.K.Frame
import proofs.«129092_g28501402976259_cont_9to1_647_12_alg».proof.Proof.KI.Frame
import proofs.«129092_g28501402976259_cont_9to1_647_12_alg».proof.Proof.KI.Value
import proofs.«129092_g28501402976259_cont_9to1_647_12_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Over the extended reals, from memories agreeing on the arguments, both programs end with the specification's
    output of the arguments: the kernel's result array by its write-backs, the reference's by its operations read one
    at a time. -/
theorem algebraic : Cert.algebraic_KernelIdeal_ReferenceIdeal := by
  intro m ρ m' ρ' _ hagree
  refine ⟨fun c => Cert.KernelIdeal.Hand.specOut m c, ?_, ?_⟩
  · exact (θ_run Cert.KernelIdeal.defs _ _).mono
      (fun r h c => ⟨((h c).1 7).trans (Cert.KernelIdeal.Hand.out_final m c), Cert.KernelIdeal.Hand.kept_args m r h c⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.ReferenceIdeal.RefValue.ref_is_spec,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
